-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg6 : FVec F S256x256 .f32) (main_arg7 : FVec F S256x256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x256 .f32) (main_arg4 : FVec F S128x256 .f32) (main_arg5 : FVec F S256 .f32) (main_arg6 : FVec F S256x256 .f32) (main_arg7 : FVec F S256x256 .f32) (main_arg8 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S128 : Shape := ⟨1, ![128]⟩
abbrev S1 : Shape := ⟨1, ![1]⟩
abbrev S129 : Shape := ⟨1, ![129]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S50000x1 : Shape := ⟨2, ![50000, 1]⟩
abbrev S64x256 : Shape := ⟨2, ![64, 256]⟩
abbrev S2000x1 : Shape := ⟨2, ![2000, 1]⟩
abbrev S2000x64 : Shape := ⟨2, ![2000, 64]⟩
abbrev S64 : Shape := ⟨1, ![64]⟩
abbrev S64x1 : Shape := ⟨2, ![64, 1]⟩

abbrev nBuf : Space → Nat
  | .hbm => 80
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S1, .f32⟩
  | .hbm, ⟨21, _⟩ => ⟨S129, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S1x256, .f32⟩
  | .hbm, ⟨36, _⟩ => ⟨S50000x256, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x256, .f32⟩
  | .hbm, ⟨46, _⟩ => ⟨S_, .f32⟩
  | .hbm, ⟨47, _⟩ => ⟨S50000x256, .f32⟩
  | .hbm, ⟨48, _⟩ => ⟨S800000x1, .i32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S1x256, .f32⟩
  | .hbm, ⟨66, _⟩ => ⟨S50000x1, .i32⟩
  | .hbm, ⟨67, _⟩ => ⟨S64x256, .f32⟩
  | .hbm, ⟨68, _⟩ => ⟨S_, .f32⟩
  | .hbm, ⟨69, _⟩ => ⟨S50000, .f32⟩
  | .hbm, ⟨70, _⟩ => ⟨S_, .f32⟩
  | .hbm, ⟨71, _⟩ => ⟨S64, .f32⟩
  | .hbm, ⟨72, _⟩ => ⟨S50000x1, .i32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S64x1, .f32⟩
  | .hbm, ⟨78, _⟩ => ⟨S64x256, .f32⟩
  | .hbm, ⟨79, _⟩ => ⟨S64x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S2000x1, .i32⟩
  | .local _ .vmem, ⟨26, _⟩ => ⟨S2000x1, .i32⟩
  | .local _ .vmem, ⟨27, _⟩ => ⟨S64x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S64x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x128_S_d0_1 : S50000x128.ReducesTo [0, 1] S_
  h_S_ : 0 < S_.numel
  reducesTo_S50000x128_S128_d0 : S50000x128.ReducesTo [0] S128
  bcast_S_S128 : S_.BroadcastsInDim S128 (![] : Fin 0 → Fin S128.rank)
  bcast_S_S1 : S_.BroadcastsInDim S1 (![] : Fin 0 → Fin S1.rank)
  concatenates_S128_S1_S129_d0 : Shape.Concatenates [S128, S1] S129 0
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S50000_S50000x1 : S50000.ShapeCasts S50000x1
  inb_S64x256_S64x256_0_0 : ∀ a, (![0, 0] : Fin 2 → Nat) a + S64x256.size a ≤ S64x256.size a
  h_S64x256 : 0 < S64x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  shapeCasts_S64x256_S64x256 : S64x256.ShapeCasts S64x256
  bcast_S_S50000 : S_.BroadcastsInDim S50000 (![] : Fin 0 → Fin S50000.rank)
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x64_S2000x256_S64x256_0_0_1_1_n_n_wf : DotDims.WF S2000x64 S2000x256 S64x256 [0] [0] [1] [1] [] []
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S50000x1.size a
  hwx2_5 : ∀ i : grid2.Coords, EltTy.bits .i32 = 32 ∨ (Rect.block (s := S50000x1) S2000x1.size (cc2_transform_5 i) (hinb2_5 i)).WholeWords (EltTy.packing .i32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x256.size a ≤ S64x256.size a
  hwx2_6 : ∀ i : grid2.Coords, EltTy.bits .f32 = 32 ∨ (Rect.block (s := S64x256) S64x256.size (cc2_transform_6 i) (hinb2_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x64_S2000x256_S64x256_0_0_1_1_n_n : DotDims S2000x64 S2000x256 S64x256 where
  lhsContracting := [0]
  rhsContracting := [0]
  lhsNonContracting := [1]
  rhsNonContracting := [1]
  lhsBatch := []
  rhsBatch := []
  wf := dot_S2000x64_S2000x256_S64x256_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_v20) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S2000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v47) S64x256.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S128 : Shape := ⟨1, ![128]⟩
abbrev S1 : Shape := ⟨1, ![1]⟩
abbrev S129 : Shape := ⟨1, ![129]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S64 : Shape := ⟨1, ![64]⟩
abbrev S50000x1 : Shape := ⟨2, ![50000, 1]⟩
abbrev S64x256 : Shape := ⟨2, ![64, 256]⟩
abbrev S64x1 : Shape := ⟨2, ![64, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S1, .f32⟩
  | .hbm, ⟨21, _⟩ => ⟨S129, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S_, .f32⟩
  | .hbm, ⟨42, _⟩ => ⟨S50000x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x256, .f32⟩
  | .hbm, ⟨65, _⟩ => ⟨S50000x256, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x256, .f32⟩
  | .hbm, ⟨75, _⟩ => ⟨S_, .f32⟩
  | .hbm, ⟨76, _⟩ => ⟨S50000x256, .f32⟩
  | .hbm, ⟨77, _⟩ => ⟨S800000x1, .i32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S50000x256, .f32⟩
  | .hbm, ⟨82, _⟩ => ⟨S1x256, .f32⟩
  | .hbm, ⟨83, _⟩ => ⟨S50000x256, .f32⟩
  | .hbm, ⟨84, _⟩ => ⟨S50000x256, .f32⟩
  | .hbm, ⟨85, _⟩ => ⟨S_, .f32⟩
  | .hbm, ⟨86, _⟩ => ⟨S50000x256, .f32⟩
  | .hbm, ⟨87, _⟩ => ⟨S50000x256, .f32⟩
  | .hbm, ⟨88, _⟩ => ⟨S_, .f32⟩
  | .hbm, ⟨89, _⟩ => ⟨S50000, .f32⟩
  | .hbm, ⟨90, _⟩ => ⟨S_, .f32⟩
  | .hbm, ⟨91, _⟩ => ⟨S64, .f32⟩
  | .hbm, ⟨92, _⟩ => ⟨S50000x1, .i32⟩
  | .hbm, ⟨93, _⟩ => ⟨S64, .f32⟩
  | .hbm, ⟨94, _⟩ => ⟨S_, .f32⟩
  | .hbm, ⟨95, _⟩ => ⟨S64x256, .f32⟩
  | .hbm, ⟨96, _⟩ => ⟨S50000x1, .i32⟩
  | .hbm, ⟨97, _⟩ => ⟨S64x256, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S64x1, .f32⟩
  | .hbm, ⟨102, _⟩ => ⟨S64x256, .f32⟩
  | .hbm, ⟨103, _⟩ => ⟨S64x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_cst : Ref sig .tc := ⟨.hbm, 41, rfl⟩
abbrev main_call0_v0 : Ref sig .tc := ⟨.hbm, 42, rfl⟩
abbrev main_v27 : Ref sig .tc := ⟨.hbm, 43, rfl⟩
abbrev main_c_3 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_v44 : Ref sig .tc := ⟨.hbm, 65, rfl⟩
abbrev main_c_6 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call2_cst : Ref sig .tc := ⟨.hbm, 85, rfl⟩
abbrev main_call2_v0 : Ref sig .tc := ⟨.hbm, 86, rfl⟩
abbrev main_v61 : Ref sig .tc := ⟨.hbm, 87, rfl⟩
abbrev main_cst_9 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x128_S_d0_1 : S50000x128.ReducesTo [0, 1] S_
  h_S_ : 0 < S_.numel
  reducesTo_S50000x128_S128_d0 : S50000x128.ReducesTo [0] S128
  bcast_S_S128 : S_.BroadcastsInDim S128 (![] : Fin 0 → Fin S128.rank)
  bcast_S_S1 : S_.BroadcastsInDim S1 (![] : Fin 0 → Fin S1.rank)
  concatenates_S128_S1_S129_d0 : Shape.Concatenates [S128, S1] S129 0
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S50000 : S_.BroadcastsInDim S50000 (![] : Fin 0 → Fin S50000.rank)
  bcast_S_S64 : S_.BroadcastsInDim S64 (![] : Fin 0 → Fin S64.rank)
  bcast_S50000_S50000x1_0 : S50000.BroadcastsInDim S50000x1 (![0] : Fin 1 → Fin S50000x1.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf

class Facts : Prop extends Facts₀ where

variable [Facts]
-- ==== Proof.Spec.lean ====
/-
  What both programs compute, entry by entry, over the extended reals.

  A layer of the network takes, for every node `p`, the sum `a p` of its in-neighbours' feature rows and its own
  feature row `h p`, and gives channel `q` the value
      max (∑ₖ a p k · wr k q  +  ∑ₖ h p k · wo k q  +  b q) 0.
  The pool gives graph `g`, channel `d`, the sum of the rows `y n d` over the nodes `n` whose graph word is `g`.

  Three ways of writing the pool meet here:
    • a sum over all nodes of the row where the word matches and zero where it does not (`poolAt`);
    • a sum over the nodes whose word, read as a signed integer, is `g` (a scatter that drops what lands outside);
    • a sum of products with an indicator that is one where the word matches and zero elsewhere, taken tile by tile
      over 25 tiles of 2000 nodes and added up from a zeroed accumulator.
  On the extended reals `0 · a = 0` and `1 · a = a` for every `a`, infinite or not, and addition is commutative and
  associative, so the three are equal for all inputs.
-/
import Idealize.ShloMosaic.PureOps.Ideal
import Idealize.ShloMosaic.Lib.ValueIdx
import Mathlib.Algebra.BigOperators.Fin
import Mathlib.Logic.Equiv.Fin.Basic

noncomputable section

namespace Cert.Spec

open Idealize.ShloMosaic Idealize.ShloMosaic.ValueIdx

/-- A matrix of extended reals with `a` rows and `b` columns. -/
abbrev Mat (a b : ℕ) : Type := (⟨2, ![a, b]⟩ : Shape).Idx → EReal

/-- One layer at node `p`, channel `q`. -/
def layerAt {K : ℕ} (a h : Mat 50000 K) (wr wo : Mat K 256) (b : Fin 256 → EReal) (p : Fin 50000) (q : Fin 256) : EReal :=
  max ((∑ k : Fin K, a (ix2 p k) * wr (ix2 k q)) + (∑ k : Fin K, h (ix2 p k) * wo (ix2 k q)) + b q) 0

/-- One layer as a matrix. -/
def layer {K : ℕ} (a h : Mat 50000 K) (wr wo : Mat K 256) (b : Fin 256 → EReal) : Mat 50000 256 :=
  fun j => layerAt a h wr wo b (j 0) (j 1)

theorem layer_apply {K : ℕ} (a h : Mat 50000 K) (wr wo : Mat K 256) (b : Fin 256 → EReal) (p : Fin 50000) (q : Fin 256) :
    layer a h wr wo b (ix2 p q) = layerAt a h wr wo b p q := rfl

/-- The pool at graph `g`, channel `d`: the rows of the nodes whose graph word is `g`, summed. -/
def poolAt (bt : Fin 50000 → BitVec 32) (y : Mat 50000 256) (g : Fin 64) (d : Fin 256) : EReal :=
  ∑ n : Fin 50000, if bt n = BitVec.ofNat 32 g.val then y (ix2 n d) else 0

/-- The pool as a matrix. -/
def pool (bt : Fin 50000 → BitVec 32) (y : Mat 50000 256) : Mat 64 256 :=
  fun j => poolAt bt y (j 0) (j 1)

theorem pool_apply (bt : Fin 50000 → BitVec 32) (y : Mat 50000 256) (g : Fin 64) (d : Fin 256) :
    pool bt y (ix2 g d) = poolAt bt y g d := rfl

/-! ## The indicator -/

/-- An indicator times a value is the value where the indicator is one and zero where it is zero: on the extended
    reals too, where `0 · ⊤ = 0`. -/
theorem indicator_mul (p : Prop) [Decidable p] (a : EReal) : (if p then (1 : EReal) else 0) * a = if p then a else 0 := by
  split
  · exact one_mul a
  · exact zero_mul a

/-! ## A graph word and its number -/

/-- For a graph number below 64, a 32-bit word read as a signed integer is that number exactly when the word is the
    number's word. -/
theorem toInt_eq_iff (w : BitVec 32) (g : Fin 64) : w.toInt = (g.val : ℤ) ↔ w = BitVec.ofNat 32 g.val := by
  have hg : g.val < 64 := g.isLt
  constructor
  · intro h
    apply BitVec.eq_of_toNat_eq
    rw [BitVec.toNat_ofNat, Nat.mod_eq_of_lt (by omega)]
    have h2 := w.isLt
    rw [BitVec.toInt_eq_toNat_cond] at h
    split at h <;> omega
  · intro h
    subst h
    rw [BitVec.toInt_eq_toNat_of_lt (by rw [BitVec.toNat_ofNat, Nat.mod_eq_of_lt (by omega)]; omega), BitVec.toNat_ofNat,
      Nat.mod_eq_of_lt (by omega)]

/-- The scatter's form of the pool — zero plus the rows whose word read signed is `g` — is `poolAt`. -/
theorem filter_sum_eq_poolAt (bt : Fin 50000 → BitVec 32) (y : Mat 50000 256) (g : Fin 64) (d : Fin 256) :
    (0 : EReal) + ∑ e ∈ Finset.univ.filter (fun e : Fin 50000 => (bt e).toInt = (g.val : ℤ)), y (ix2 e d) = poolAt bt y g d := by
  rw [zero_add, poolAt, Finset.sum_filter]
  refine Finset.sum_congr rfl (fun e _ => ?_)
  exact if_congr (toInt_eq_iff (bt e) g) rfl rfl

/-! ## Tile by tile -/

/-- 25 tiles of 2000 rows: the sum over the tiles of each tile's sum is the sum over the 50000 rows. -/
theorem sum_tiles {M : Type*} [AddCommMonoid M] (f : Fin 50000 → M) :
    ∑ s : Fin 25, ∑ r : Fin 2000, f ⟨s.val * 2000 + r.val, by omega⟩ = ∑ i : Fin 50000, f i := by
  rw [← Fintype.sum_prod_type']
  refine Fintype.sum_equiv (finProdFinEquiv.trans (finCongr (show 25 * 2000 = 50000 from rfl))) _ _ ?_
  rintro ⟨s, r⟩
  refine congrArg f (Fin.ext ?_)
  simp only [Equiv.trans_apply, finProdFinEquiv_apply_val, finCongr_apply, Fin.val_cast]
  omega

/-- What tile `s` adds to the pool at `(g, d)`: the indicator times the row, over the tile's 2000 nodes. -/
def tileAt (bt : Fin 50000 → BitVec 32) (y : Mat 50000 256) (g : Fin 64) (d : Fin 256) (s : Fin 25) : EReal :=
  ∑ r : Fin 2000, (if bt ⟨s.val * 2000 + r.val, by omega⟩ = BitVec.ofNat 32 g.val then (1 : EReal) else 0)
    * y (ix2 (⟨s.val * 2000 + r.val, by omega⟩ : Fin 50000) d)

/-- The tiles' contributions add up to the pool. -/
theorem sum_tileAt (bt : Fin 50000 → BitVec 32) (y : Mat 50000 256) (g : Fin 64) (d : Fin 256) :
    ∑ s : Fin 25, tileAt bt y g d s = poolAt bt y g d := by
  unfold tileAt poolAt
  rw [← sum_tiles (fun n => if bt n = BitVec.ofNat 32 g.val then y (ix2 n d) else 0)]
  refine Finset.sum_congr rfl (fun s _ => Finset.sum_congr rfl (fun r _ => ?_))
  exact indicator_mul _ _

end Cert.Spec

end
-- ==== Proof.Shared.lean ====
/-
  The host computations the two programs have in common, each as one function, and the network's two results as
  functions of the nine arguments.

  Both programs aggregate over the edges with the same operations: an edge's source position is wrapped when negative
  (`s < 0` becomes `s + 50000`), the source row is gathered, and the row is added into the destination row by a
  scatter that drops what lands outside. Nothing below opens these operations: a proof that both programs compute
  `aggr s d h` of equal `s`, `d`, `h` needs only that they apply the same function.
  The same holds for the divisor of the mean (the graphs' node counts, at least one, laid along the channels) and for
  the second result (the column sums over the total, and the total's logarithm).
-/
import proofs.«402830_j32744830665311_3_alg».proof.Proof.Gen.KernelIdeal
import proofs.«402830_j32744830665311_3_alg».proof.Proof.Spec

noncomputable section

namespace Cert.Shared

open Idealize.ShloMosaic Idealize.ShloMosaic.ValueIdx Cert.KernelIdeal Cert.KernelIdeal.Gen

/-- The edges' source positions: row 0 of the edge list. -/
def srcOf (e : IVec S2x800000 32) : IVec S800000 32 :=
  shapeCast S800000 (extractStridedSlice S1x800000 ![0, 0] e slices_S2x800000_S1x800000_0_0) shapeCasts_S1x800000_S800000

/-- The edges' destination positions: row 1 of the edge list. -/
def dstOf (e : IVec S2x800000 32) : IVec S800000 32 :=
  shapeCast S800000 (extractStridedSlice S1x800000 ![1, 0] e slices_S2x800000_S1x800000_1_0) shapeCasts_S1x800000_S800000

/-- A position counted from the end when negative, as a column of index words. -/
def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The neighbours' sum of 128-channel rows: gather the source rows, add each into its destination row. -/
def aggr128 (s d : IVec S800000 32) (h : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 h (wrapCol s))

/-- The neighbours' sum of 256-channel rows. -/
def aggr256 (s d : IVec S800000 32) (h : FVec Ideal S50000x256 .f32) : FVec Ideal S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (Host.gather gather_S50000x256_S800000x1_S800000x256_1_0_n_n_0_1_1256 h (wrapCol s))

/-- The mean's divisor: each graph's node count, at least one, laid along the 256 channels. -/
def denom (bt : IVec S50000 32) : FVec Ideal S64x256 .f32 :=
  broadcastInDim S64x256 ![0, 1] bcast_S64x1_S64x256_0_1
    (broadcastInDim S64x1 ![0] bcast_S64_S64x1_0
      (maximumf
        (Host.scatterAdd scatter_S64_S50000x1_S50000_n_0_0_1
          (broadcastInDim S64 ![] bcast_S_S64 (constant S_ .f32 0x00000000#32))
          (broadcastInDim S50000x1 ![0] bcast_S50000_S50000x1_0 bt)
          (broadcastInDim S50000 ![] bcast_S_S50000 (constant S_ .f32 0x3F800000#32)))
        (broadcastInDim S64 ![] bcast_S_S64 (constant S_ .f32 0x3F800000#32))))

/-- The second result: each column's sum over the total, then the total's logarithm. -/
def handcrafted (x : FVec Ideal S50000x128 .f32) : FVec Ideal S129 .f32 :=
  concatenate S129 0
    [⟨S128, Host.divf (Host.reduceAdd x (constant S_ .f32 0x00000000#32) reducesTo_S50000x128_S128_d0 h_S_)
        (broadcastInDim S128 ![] bcast_S_S128 (Host.reduceAdd x (constant S_ .f32 0x00000000#32) reducesTo_S50000x128_S_d0_1 h_S_))⟩,
     ⟨S1, broadcastInDim S1 ![] bcast_S_S1 (Host.log (Host.reduceAdd x (constant S_ .f32 0x00000000#32) reducesTo_S50000x128_S_d0_1 h_S_))⟩]
    concatenates_S128_S1_S129_d0

/-- The first layer's output from the arguments. -/
def hidden1 (x : FVec Ideal S50000x128 .f32) (e : IVec S2x800000 32) (w1r w1o : FVec Ideal S128x256 .f32)
    (b1 : FVec Ideal S256 .f32) : FVec Ideal S50000x256 .f32 :=
  Cert.Spec.layer (aggr128 (srcOf e) (dstOf e) x) x w1r w1o (fun q => b1 (ix1 q))

/-- A later layer's output from the layer before. -/
def hiddenNext (h : FVec Ideal S50000x256 .f32) (e : IVec S2x800000 32) (w2r w2o : FVec Ideal S256x256 .f32)
    (b2 : FVec Ideal S256 .f32) : FVec Ideal S50000x256 .f32 :=
  Cert.Spec.layer (aggr256 (srcOf e) (dstOf e) h) h w2r w2o (fun q => b2 (ix1 q))

/-- The first result: three layers, pooled by graph, divided by the graphs' sizes. -/
def pooledMean (x : FVec Ideal S50000x128 .f32) (e : IVec S2x800000 32) (bt : IVec S50000 32)
    (w1r w1o : FVec Ideal S128x256 .f32) (b1 : FVec Ideal S256 .f32)
    (w2r w2o : FVec Ideal S256x256 .f32) (b2 : FVec Ideal S256 .f32) : FVec Ideal S64x256 .f32 :=
  Host.divf
    (Cert.Spec.pool (fun n => bt (ix1 n))
      (hiddenNext (hiddenNext (hidden1 x e w1r w1o b1) e w2r w2o b2) e w2r w2o b2))
    (denom bt)

end Cert.Shared

end
-- ==== Proof.PayDense.lean ====
/-
  The dense layer's tile at an entry.

  On a tile of 2000 nodes the kernel body loads the aggregate tile `x0`, the feature tile `x1`, the two weight
  matrices `x2`, `x3` and the bias row `x4`, and stores
      max (x0 · x2 + x1 · x3 + bias, 0).
  Read at row `r`, channel `q`, over the extended reals: both matrix products are plain sums over the contracted
  axis (a product into a zero accumulator adds nothing), the change of float format before each product is the
  identity, and the bias row is read at its one row.
-/
import proofs.«402830_j32744830665311_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-! ## The product of a `[2000, 128]` tile and a `[128, 256]` matrix

  The left operand's index at output `(r, q)` and contraction position `k` is `(r, k)`, the right operand's is
  `(k, q)`: one lemma per operand axis. -/

/-- The left operand's row is the output's row. -/
private theorem d128_lhs_0 (i : S2000x256.Idx) (p : dot_S2000x128_S128x256_S2000x256_1_0_0_1_n_n.contr.Idx) :
    (dot_S2000x128_S128x256_S2000x256_1_0_0_1_n_n.lhsIdx i p 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

/-- The left operand's column is the contraction position. -/
private theorem d128_lhs_1 (i : S2000x256.Idx) (p : dot_S2000x128_S128x256_S2000x256_1_0_0_1_n_n.contr.Idx) :
    (dot_S2000x128_S128x256_S2000x256_1_0_0_1_n_n.lhsIdx i p 1).val = (p ⟨0, by decide⟩).val :=
  dot_S2000x128_S128x256_S2000x256_1_0_0_1_n_n.lhsIdx_val_of_single rfl i p

/-- The right operand's row is the contraction position. -/
private theorem d128_rhs_0 (i : S2000x256.Idx) (p : dot_S2000x128_S128x256_S2000x256_1_0_0_1_n_n.contr.Idx) :
    (dot_S2000x128_S128x256_S2000x256_1_0_0_1_n_n.rhsIdx i p 0).val = (p ⟨0, by decide⟩).val :=
  dot_S2000x128_S128x256_S2000x256_1_0_0_1_n_n.rhsIdx_val_of_single rfl i p

/-- The right operand's column is the output's column. -/
private theorem d128_rhs_1 (i : S2000x256.Idx) (p : dot_S2000x128_S128x256_S2000x256_1_0_0_1_n_n.contr.Idx) :
    (dot_S2000x128_S128x256_S2000x256_1_0_0_1_n_n.rhsIdx i p 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- The product into a zero accumulator, at `(r, q)`: the sum over the 128 contracted channels. -/
private theorem mm128_apply {φ₁ φ₂ : FTy} (a : FVec Ideal S2000x128 φ₁) (b : FVec Ideal S128x256 φ₂) (r : Fin 2000) (q : Fin 256) :
    matmul (F := Ideal) dot_S2000x128_S128x256_S2000x256_1_0_0_1_n_n none a b (constant S2000x256 .f32 0x00000000#32) (ix2 r q)
      = ∑ k : Fin 128, a (ix2 r k) * b (ix2 k q) := by
  refine (Ideal.matmul_constant_zero_apply dot_S2000x128_S128x256_S2000x256_1_0_0_1_n_n none a b (ix2 r q)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 r q) ((contrEquiv1 dot_S2000x128_S128x256_S2000x256_1_0_0_1_n_n 128 rfl rfl).symm k) = ix2 r k :=
    funext fun ax => Fin.ext (by
      match ax with
      | ⟨0, _⟩ => exact d128_lhs_0 _ _
      | ⟨1, _⟩ => exact (d128_lhs_1 _ _).trans hk)
  have er : dot_S2000x128_S128x256_S2000x256_1_0_0_1_n_n.rhsIdx (ix2 r q) ((contrEquiv1 dot_S2000x128_S128x256_S2000x256_1_0_0_1_n_n 128 rfl rfl).symm k) = ix2 k q :=
    funext fun ax => Fin.ext (by
      match ax with
      | ⟨0, _⟩ => exact (d128_rhs_0 _ _).trans hk
      | ⟨1, _⟩ => exact d128_rhs_1 _ _)
  rw [el, er]

/-! ## The product of a `[2000, 256]` tile and a `[256, 256]` matrix

  The left operand's index at output `(r, q)` and contraction position `k` is `(r, k)`, the right operand's is
  `(k, q)`: one lemma per operand axis. -/

/-- The left operand's row is the output's row. -/
private theorem d256_lhs_0 (i : S2000x256.Idx) (p : dot_S2000x256_S256x256_S2000x256_1_0_0_1_n_n.contr.Idx) :
    (dot_S2000x256_S256x256_S2000x256_1_0_0_1_n_n.lhsIdx i p 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- The left operand's column is the contraction position. -/
private theorem d256_lhs_1 (i : S2000x256.Idx) (p : dot_S2000x256_S256x256_S2000x256_1_0_0_1_n_n.contr.Idx) :
    (dot_S2000x256_S256x256_S2000x256_1_0_0_1_n_n.lhsIdx i p 1).val = (p ⟨0, by decide⟩).val :=
  dot_S2000x256_S256x256_S2000x256_1_0_0_1_n_n.lhsIdx_val_of_single rfl i p

/-- The right operand's row is the contraction position. -/
private theorem d256_rhs_0 (i : S2000x256.Idx) (p : dot_S2000x256_S256x256_S2000x256_1_0_0_1_n_n.contr.Idx) :
    (dot_S2000x256_S256x256_S2000x256_1_0_0_1_n_n.rhsIdx i p 0).val = (p ⟨0, by decide⟩).val :=
  dot_S2000x256_S256x256_S2000x256_1_0_0_1_n_n.rhsIdx_val_of_single rfl i p

/-- The right operand's column is the output's column. -/
private theorem d256_rhs_1 (i : S2000x256.Idx) (p : dot_S2000x256_S256x256_S2000x256_1_0_0_1_n_n.contr.Idx) :
    (dot_S2000x256_S256x256_S2000x256_1_0_0_1_n_n.rhsIdx i p 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The product into a zero accumulator, at `(r, q)`: the sum over the 256 contracted channels. -/
private theorem mm256_apply {φ₁ φ₂ : FTy} (a : FVec Ideal S2000x256 φ₁) (b : FVec Ideal S256x256 φ₂) (r : Fin 2000) (q : Fin 256) :
    matmul (F := Ideal) dot_S2000x256_S256x256_S2000x256_1_0_0_1_n_n none a b (constant S2000x256 .f32 0x00000000#32) (ix2 r q)
      = ∑ k : Fin 256, a (ix2 r k) * b (ix2 k q) := by
  refine (Ideal.matmul_constant_zero_apply dot_S2000x256_S256x256_S2000x256_1_0_0_1_n_n none a b (ix2 r q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r q) ((contrEquiv1 dot_S2000x256_S256x256_S2000x256_1_0_0_1_n_n 256 rfl rfl).symm k) = ix2 r k :=
    funext fun ax => Fin.ext (by
      match ax with
      | ⟨0, _⟩ => exact d256_lhs_0 _ _
      | ⟨1, _⟩ => exact (d256_lhs_1 _ _).trans hk)
  have er : dot_S2000x256_S256x256_S2000x256_1_0_0_1_n_n.rhsIdx (ix2 r q) ((contrEquiv1 dot_S2000x256_S256x256_S2000x256_1_0_0_1_n_n 256 rfl rfl).symm k) = ix2 k q :=
    funext fun ax => Fin.ext (by
      match ax with
      | ⟨0, _⟩ => exact (d256_rhs_0 _ _).trans hk
      | ⟨1, _⟩ => exact d256_rhs_1 _ _)
  rw [el, er]

/-! ## The two tiles -/

/-- The first layer's tile (128 input channels) at row `r`, channel `q`. -/
theorem dense128_apply (x0 x1 : Vec Ideal S2000x128 .f32) (x2 x3 : Vec Ideal S128x256 .f32) (x4 : Vec Ideal S1x256 .f32)
    (r : Fin 2000) (q : Fin 256) :
    k0_pay1 (F := Ideal) x0 x1 x2 x3 x4 (ix2 r q)
      = max ((∑ k : Fin 128, x0 (ix2 r k) * x2 (ix2 k q)) + (∑ k : Fin 128, x1 (ix2 r k) * x3 (ix2 k q))
          + x4 (ix2 (0 : Fin 1) q)) 0 := by
  unfold k0_pay1
  rw [maximumf_apply, addf_apply, addf_apply, mm128_apply, mm128_apply, broadcastTo_1b_ab_apply, shapeCast_self,
    shapeCast_self, broadcast_apply]
  simp only [truncf_apply]
  rw [Ideal.ofBits_def, Ideal.ofBits_zero_f32]

/-- The second layer's tile (256 input channels) at row `r`, channel `q`. -/
theorem dense256_apply (x0 x1 : Vec Ideal S2000x256 .f32) (x2 x3 : Vec Ideal S256x256 .f32) (x4 : Vec Ideal S1x256 .f32)
    (r : Fin 2000) (q : Fin 256) :
    k1_pay1 (F := Ideal) x0 x1 x2 x3 x4 (ix2 r q)
      = max ((∑ k : Fin 256, x0 (ix2 r k) * x2 (ix2 k q)) + (∑ k : Fin 256, x1 (ix2 r k) * x3 (ix2 k q))
          + x4 (ix2 (0 : Fin 1) q)) 0 := by
  unfold k1_pay1
  rw [maximumf_apply, addf_apply, addf_apply, mm256_apply, mm256_apply, broadcastTo_1b_ab_apply, shapeCast_self,
    shapeCast_self, shapeCast_self, broadcast_apply]
  simp only [truncf_apply]
  rw [Ideal.ofBits_def, Ideal.ofBits_zero_f32]

end Cert.KernelIdeal.Pay

end
-- ==== Proof.LibColumn.lean ====
/-
  Two layout operations on a column, read at an index. A column is an array of shape `[a, 1]`.

  * `broadcastTo_a1_ab_apply`: a column broadcast along `b` lanes reads, at `(p, c)`, the column's entry of row `p`
    (a keepdims reduction result, or a per-row scale, laid against a matrix).
  * `shapeCast_a_a1_apply`: a vector `[a]` cast to a column reads, at `(p, 0)`, the vector's entry `p`
    (`v[:, None]`, or a reshape `(a,) → (a, 1)`).

  Both are stated over the literal-extent index constructors `ix1`, `ix2`, for any element type.
-/
import Idealize.ShloMosaic.Lib.ValueIdx
import Idealize.ShloMosaic.Lib.Pipeline.Value

noncomputable section

namespace Cert.Lib

open Idealize.ShloMosaic Idealize.ShloMosaic.ValueIdx

/-- An `[a, 1]` column broadcast along `b` lanes reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Lib

end
-- ==== Proof.PayPool.lean ====
/-
  The fused third layer and pool: what one tile adds to the accumulator, at an entry.

  On a tile of 2000 nodes the body computes the layer's rows `y` as in the dense layers, builds the indicator
  `onehot r g = 1` where node `r`'s graph word is `g`'s and `0` elsewhere (a compare against a lane count, widened,
  made a float), and stores the accumulator block plus `onehotᵀ · y`: at graph `g`, channel `d`,
      acc g d + ∑ᵣ onehot r g · y r d.
  The reset stores zeros.
-/
import proofs.«402830_j32744830665311_3_alg».proof.Proof.Gen.KernelIdeal.Skeleton
import proofs.«402830_j32744830665311_3_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-! ## The indicator word

  A compare of two 32-bit words, widened from one bit to 32 and read as a signed integer, is the float `1` where
  the words agree and `0` where they differ. -/

/-- The widened compare bit as a float. -/
private theorem onehot_word (x y : BitVec 32) :
    FloatOps.sitofp (F := Ideal) .f32 ((IntOp.cmpi .eq x y).setWidth 32) = if x = y then (1 : EReal) else 0 := by
  by_cases h : x = y
  · rw [if_pos h]
    have hc : IntOp.cmpi .eq x y = 1#1 := by simp [IntOp.cmpi, h]
    rw [hc]
    show (((BitVec.setWidth 32 1#1).toInt : ℝ) : EReal) = 1
    have hi : (BitVec.setWidth 32 1#1).toInt = 1 := by decide
    rw [hi]; norm_num
  · rw [if_neg h]
    have hb : (x == y) = false := beq_eq_false_iff_ne.mpr h
    have hc : IntOp.cmpi .eq x y = 0#1 := by
      unfold IntOp.cmpi
      rw [hb]; rfl
    rw [hc]
    show (((BitVec.setWidth 32 0#1).toInt : ℝ) : EReal) = 0
    have hi : (BitVec.setWidth 32 0#1).toInt = 0 := by decide
    rw [hi]; norm_num

/-- A word compare at an index compares the elements. -/
private theorem cmpi_eq_apply {s : Shape} (a b : IVec s 32) (i : s.Idx) :
    cmpi .eq a b i = IntOp.cmpi .eq (a i) (b i) := rfl

/-! ## The layer's rows

  The product of a `[2000, 256]` tile and a `[256, 256]` matrix: the left operand's index at output `(r, q)` and
  contraction position `k` is `(r, k)`, the right operand's is `(k, q)`. -/

/-- The left operand's row is the output's row. -/
private theorem p256_lhs_0 (i : S2000x256.Idx) (p : dot_S2000x256_S256x256_S2000x256_1_0_0_1_n_n.contr.Idx) :
    (dot_S2000x256_S256x256_S2000x256_1_0_0_1_n_n.lhsIdx i p 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- The left operand's column is the contraction position. -/
private theorem p256_lhs_1 (i : S2000x256.Idx) (p : dot_S2000x256_S256x256_S2000x256_1_0_0_1_n_n.contr.Idx) :
    (dot_S2000x256_S256x256_S2000x256_1_0_0_1_n_n.lhsIdx i p 1).val = (p ⟨0, by decide⟩).val :=
  dot_S2000x256_S256x256_S2000x256_1_0_0_1_n_n.lhsIdx_val_of_single rfl i p

/-- The right operand's row is the contraction position. -/
private theorem p256_rhs_0 (i : S2000x256.Idx) (p : dot_S2000x256_S256x256_S2000x256_1_0_0_1_n_n.contr.Idx) :
    (dot_S2000x256_S256x256_S2000x256_1_0_0_1_n_n.rhsIdx i p 0).val = (p ⟨0, by decide⟩).val :=
  dot_S2000x256_S256x256_S2000x256_1_0_0_1_n_n.rhsIdx_val_of_single rfl i p

/-- The right operand's column is the output's column. -/
private theorem p256_rhs_1 (i : S2000x256.Idx) (p : dot_S2000x256_S256x256_S2000x256_1_0_0_1_n_n.contr.Idx) :
    (dot_S2000x256_S256x256_S2000x256_1_0_0_1_n_n.rhsIdx i p 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The product into a zero accumulator, at `(r, q)`: the sum over the 256 contracted channels. -/
private theorem rows_mm_apply {φ₁ φ₂ : FTy} (a : FVec Ideal S2000x256 φ₁) (b : FVec Ideal S256x256 φ₂) (r : Fin 2000)
    (q : Fin 256) :
    matmul (F := Ideal) dot_S2000x256_S256x256_S2000x256_1_0_0_1_n_n none a b (constant S2000x256 .f32 0x00000000#32) (ix2 r q)
      = ∑ k : Fin 256, a (ix2 r k) * b (ix2 k q) := by
  refine (Ideal.matmul_constant_zero_apply dot_S2000x256_S256x256_S2000x256_1_0_0_1_n_n none a b (ix2 r q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r q) ((contrEquiv1 dot_S2000x256_S256x256_S2000x256_1_0_0_1_n_n 256 rfl rfl).symm k) = ix2 r k :=
    funext fun ax => Fin.ext (by
      match ax with
      | ⟨0, _⟩ => exact p256_lhs_0 _ _
      | ⟨1, _⟩ => exact (p256_lhs_1 _ _).trans hk)
  have er : dot_S2000x256_S256x256_S2000x256_1_0_0_1_n_n.rhsIdx (ix2 r q) ((contrEquiv1 dot_S2000x256_S256x256_S2000x256_1_0_0_1_n_n 256 rfl rfl).symm k) = ix2 k q :=
    funext fun ax => Fin.ext (by
      match ax with
      | ⟨0, _⟩ => exact (p256_rhs_0 _ _).trans hk
      | ⟨1, _⟩ => exact p256_rhs_1 _ _)
  rw [el, er]

/-- The layer's rows at node `r`, channel `q` (the same chain of operations as the second dense layer's tile). -/
private theorem rows_apply (x0 x1 : Vec Ideal S2000x256 .f32) (x2 x3 : Vec Ideal S256x256 .f32) (x4 : Vec Ideal S1x256 .f32)
    (r : Fin 2000) (q : Fin 256) :
    k1_pay1 (F := Ideal) x0 x1 x2 x3 x4 (ix2 r q)
      = max ((∑ k : Fin 256, x0 (ix2 r k) * x2 (ix2 k q)) + (∑ k : Fin 256, x1 (ix2 r k) * x3 (ix2 k q))
          + x4 (ix2 (0 : Fin 1) q)) 0 := by
  unfold k1_pay1
  rw [maximumf_apply, addf_apply, addf_apply, rows_mm_apply, rows_mm_apply, broadcastTo_1b_ab_apply, shapeCast_self,
    shapeCast_self, shapeCast_self, broadcast_apply]
  simp only [truncf_apply]
  rw [Ideal.ofBits_def, Ideal.ofBits_zero_f32]

/-! ## The pooling product

  The indicator `[2000, 64]` is contracted with the rows `[2000, 256]` along the node axis of both: at output
  `(g, d)` and contraction position `k` the left operand is read at `(k, g)`, the right at `(k, d)`. -/

/-- The indicator's row is the contraction position. -/
private theorem pp_lhs_0 (i : S64x256.Idx) (p : dot_S2000x64_S2000x256_S64x256_0_0_1_1_n_n.contr.Idx) :
    (dot_S2000x64_S2000x256_S64x256_0_0_1_1_n_n.lhsIdx i p 0).val = (p ⟨0, by decide⟩).val :=
  dot_S2000x64_S2000x256_S64x256_0_0_1_1_n_n.lhsIdx_val_of_single rfl i p

/-- The indicator's column is the output's row. -/
private theorem pp_lhs_1 (i : S64x256.Idx) (p : dot_S2000x64_S2000x256_S64x256_0_0_1_1_n_n.contr.Idx) :
    (dot_S2000x64_S2000x256_S64x256_0_0_1_1_n_n.lhsIdx i p 1).val = (i 0).val := by
  unfold DotDims.lhsIdx
  rw [dif_neg (show ¬(1 : Fin S2000x64.rank) ∈ dot_S2000x64_S2000x256_S64x256_0_0_1_1_n_n.lhsBatch by decide),
    dif_pos (show (1 : Fin S2000x64.rank) ∈ dot_S2000x64_S2000x256_S64x256_0_0_1_1_n_n.lhsNonContracting by decide)]
  rfl

/-- The rows' row is the contraction position. -/
private theorem pp_rhs_0 (i : S64x256.Idx) (p : dot_S2000x64_S2000x256_S64x256_0_0_1_1_n_n.contr.Idx) :
    (dot_S2000x64_S2000x256_S64x256_0_0_1_1_n_n.rhsIdx i p 0).val = (p ⟨0, by decide⟩).val :=
  dot_S2000x64_S2000x256_S64x256_0_0_1_1_n_n.rhsIdx_val_of_single rfl i p

/-- The rows' column is the output's column. -/
private theorem pp_rhs_1 (i : S64x256.Idx) (p : dot_S2000x64_S2000x256_S64x256_0_0_1_1_n_n.contr.Idx) :
    (dot_S2000x64_S2000x256_S64x256_0_0_1_1_n_n.rhsIdx i p 1).val = (i 1).val := by
  unfold DotDims.rhsIdx
  rw [dif_neg (show ¬(1 : Fin S2000x256.rank) ∈ dot_S2000x64_S2000x256_S64x256_0_0_1_1_n_n.rhsBatch by decide),
    dif_pos (show (1 : Fin S2000x256.rank) ∈ dot_S2000x64_S2000x256_S64x256_0_0_1_1_n_n.rhsNonContracting by decide)]
  rfl

/-- The pooling product into a zero accumulator, at graph `g`, channel `d`: the sum over the tile's 2000 nodes. -/
private theorem pool_mm_apply {φ₁ φ₂ : FTy} (a : FVec Ideal S2000x64 φ₁) (b : FVec Ideal S2000x256 φ₂)
    (prec : Option ContractPrecision) (g : Fin 64) (d : Fin 256) :
    matmul (F := Ideal) dot_S2000x64_S2000x256_S64x256_0_0_1_1_n_n prec a b (constant S64x256 .f32 0x00000000#32) (ix2 g d)
      = ∑ k : Fin 2000, a (ix2 k g) * b (ix2 k d) := by
  refine (Ideal.matmul_constant_zero_apply dot_S2000x64_S2000x256_S64x256_0_0_1_1_n_n prec a b (ix2 g d)).trans ?_
  rw [← Equiv.sum_comp (contrEquiv1 dot_S2000x64_S2000x256_S64x256_0_0_1_1_n_n 2000 rfl rfl).symm]
  refine Finset.sum_congr rfl fun k _ => ?_
  have hk := contrEquiv1_symm_val dot_S2000x64_S2000x256_S64x256_0_0_1_1_n_n 2000 rfl rfl k
  have el : dot_S2000x64_S2000x256_S64x256_0_0_1_1_n_n.lhsIdx (ix2 g d) ((contrEquiv1 dot_S2000x64_S2000x256_S64x256_0_0_1_1_n_n 2000 rfl rfl).symm k) = ix2 k g :=
    funext fun ax => Fin.ext (by
      match ax with
      | ⟨0, _⟩ => exact (pp_lhs_0 _ _).trans hk
      | ⟨1, _⟩ => exact pp_lhs_1 _ _)
  have er : dot_S2000x64_S2000x256_S64x256_0_0_1_1_n_n.rhsIdx (ix2 g d) ((contrEquiv1 dot_S2000x64_S2000x256_S64x256_0_0_1_1_n_n 2000 rfl rfl).symm k) = ix2 k d :=
    funext fun ax => Fin.ext (by
      match ax with
      | ⟨0, _⟩ => exact (pp_rhs_0 _ _).trans hk
      | ⟨1, _⟩ => exact pp_rhs_1 _ _)
  rw [el, er]

/-! ## The two stored blocks -/

/-- The reset's block is zero everywhere. -/
theorem reset_apply (g : Fin 64) (d : Fin 256) : k2_pay1 (F := Ideal) (ix2 g d) = 0 := by
  unfold k2_pay1
  rw [broadcast_apply, Ideal.ofBits_def, Ideal.ofBits_zero_f32]

/-- One tile's step at graph `g`, channel `d`: the accumulator's entry plus, over the tile's nodes, the indicator of
    the node's graph word times the layer's row entry. -/
theorem poolStep_apply (v3 v6 : Vec Ideal S2000x256 .f32) (v9 v11 : Vec Ideal S256x256 .f32) (v16 : Vec Ideal S1x256 .f32)
    (v22 : Vec Ideal S2000x1 .i32) (v30 : Vec Ideal S64x256 .f32) (g : Fin 64) (d : Fin 256) :
    k2_pay2 (F := Ideal) v3 v6 v9 v11 v16 v22 v30 (ix2 g d)
      = v30 (ix2 g d) + ∑ r : Fin 2000, (if v22 (ix2 r (0 : Fin 1)) = BitVec.ofNat 32 g.val then (1 : EReal) else 0)
          * max ((∑ k : Fin 256, v3 (ix2 r k) * v9 (ix2 k d)) + (∑ k : Fin 256, v6 (ix2 r k) * v11 (ix2 k d))
              + v16 (ix2 (0 : Fin 1) d)) 0 := by
  unfold k2_pay2
  rw [addf_apply, shapeCast_self, pool_mm_apply]
  refine congrArg (v30 (ix2 g d) + ·) (Finset.sum_congr rfl fun r _ => ?_)
  refine congrArg₂ (· * ·) ?_ ?_
  · -- the indicator: node `r`'s graph word against the lane count `g`
    rw [sitofp_apply, extui_apply, cmpi_eq_apply, Cert.Lib.broadcastTo_a1_ab_apply, shapeCast_self, iota_single_apply,
      onehot_word]
  · -- the layer's row entry
    exact rows_apply v3 v6 v9 v11 v16 r d

end Cert.KernelIdeal.Pay

end
-- ==== Proof.Reg0.lean ====
/-
  The first layer's region: what its output array holds after the 25 tiles.

  Tile `t` reads rows `2000 t … 2000 t + 1999` of the aggregate and of the features, the whole weight matrices and
  the bias row, and writes rows `2000 t … 2000 t + 1999` of the output. The tiles cover the 50000 rows, so the output
  array ends as the layer of the arrays the region found, entry by entry.
-/
import proofs.«402830_j32744830665311_3_alg».proof.Proof.Gen.KernelIdeal.Frame
import proofs.«402830_j32744830665311_3_alg».proof.Proof.Spec
import proofs.«402830_j32744830665311_3_alg».proof.Proof.PayDense
import proofs.«402830_j32744830665311_3_alg».proof.Proof.PayPool
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

-- the TensorCore's buffer contents when the region is entered
variable (V : (c : Dev nD) → (b : Ref sig .tc) → Buf (Elt Ideal) ((c : Thread nD τ).loc b))

/-- A whole-buffer access starts at the origin. -/
theorem dense0_origin : (![0, 0] : Fin 2 → Nat) = fun _ => 0 := funext fun a => by fin_cases a <;> rfl

/-- The index maps over the 25 tiles: the aggregate, the features and the output move along the rows with the tile;
    the weights and the bias stay at block `(0, 0)`. -/
theorem dense0_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of tile `t` is one of the 50000 rows. -/
theorem dense0_row_lt (t : Fin cfg0.N) (r : Fin 2000) : t.val * 2000 + r.val < 50000 := by
  have := t.isLt; have h : cfg0.N = 25 := N_0; omega

/-- Tile `t` of the aggregate at row `r`, channel `k`, is the aggregate at row `2000 t + r`: a block's coordinate is
    the block index times the block size plus the coordinate inside the block. -/
theorem dense0_aggTile (c : Dev nD) (t : Fin cfg0.N) (r : Fin 2000) (k : Fin 128) :
    iblk0 (F := Ideal) V c 0 t (ix2 r k) = V c main_v20 (ix2 ⟨t.val * 2000 + r.val, dense0_row_lt t r⟩ k) := by
  obtain ⟨e0, e1, -⟩ := dense0_index t
  show V c main_v20 (((cfg0.win 0).blk t).view.emb (ix2 r k)) = V c main_v20 _
  congr 1
  funext a; apply Fin.ext
  match a with
  | ⟨0, _⟩ => show win0_0.index t (0 : Fin 2) * 2000 + 1 * r.val = t.val * 2000 + r.val; omega
  | ⟨1, _⟩ => show win0_0.index t (1 : Fin 2) * 128 + 1 * k.val = k.val; omega

/-- Tile `t` of the features at row `r`, channel `k`, is that array at row `2000 t + r`. -/
theorem dense0_featTile (c : Dev nD) (t : Fin cfg0.N) (r : Fin 2000) (k : Fin 128) :
    iblk0 (F := Ideal) V c 1 t (ix2 r k) = V c main_arg0 (ix2 ⟨t.val * 2000 + r.val, dense0_row_lt t r⟩ k) := by
  obtain ⟨-, -, e0, e1, -⟩ := dense0_index t
  show V c main_arg0 (((cfg0.win 1).blk t).view.emb (ix2 r k)) = V c main_arg0 _
  congr 1
  funext a; apply Fin.ext
  match a with
  | ⟨0, _⟩ => show win0_1.index t (0 : Fin 2) * 2000 + 1 * r.val = t.val * 2000 + r.val; omega
  | ⟨1, _⟩ => show win0_1.index t (1 : Fin 2) * 128 + 1 * k.val = k.val; omega

/-- Every tile sees the whole weight matrix that multiplies the aggregate. -/
theorem dense0_weightAgg (c : Dev nD) (t : Fin cfg0.N) (k : Fin 128) (q : Fin 256) :
    iblk0 (F := Ideal) V c 2 t (ix2 k q) = V c main_arg3 (ix2 k q) := by
  obtain ⟨-, -, -, -, e0, e1, -⟩ := dense0_index t
  show V c main_arg3 (((cfg0.win 2).blk t).view.emb (ix2 k q)) = V c main_arg3 _
  congr 1
  funext a; apply Fin.ext
  match a with
  | ⟨0, _⟩ => show win0_2.index t (0 : Fin 2) * 128 + 1 * k.val = k.val; omega
  | ⟨1, _⟩ => show win0_2.index t (1 : Fin 2) * 256 + 1 * q.val = q.val; omega

/-- Every tile sees the whole weight matrix that multiplies the node's own row. -/
theorem dense0_weightSelf (c : Dev nD) (t : Fin cfg0.N) (k : Fin 128) (q : Fin 256) :
    iblk0 (F := Ideal) V c 3 t (ix2 k q) = V c main_arg4 (ix2 k q) := by
  obtain ⟨-, -, -, -, -, -, e0, e1, -⟩ := dense0_index t
  show V c main_arg4 (((cfg0.win 3).blk t).view.emb (ix2 k q)) = V c main_arg4 _
  congr 1
  funext a; apply Fin.ext
  match a with
  | ⟨0, _⟩ => show win0_3.index t (0 : Fin 2) * 128 + 1 * k.val = k.val; omega
  | ⟨1, _⟩ => show win0_3.index t (1 : Fin 2) * 256 + 1 * q.val = q.val; omega

/-- Every tile sees the whole bias row. -/
theorem dense0_bias (c : Dev nD) (t : Fin cfg0.N) (z : Fin 1) (q : Fin 256) :
    iblk0 (F := Ideal) V c 4 t (ix2 z q) = V c main_v21 (ix2 z q) := by
  obtain ⟨-, -, -, -, -, -, -, -, e0, e1, -⟩ := dense0_index t
  show V c main_v21 (((cfg0.win 4).blk t).view.emb (ix2 z q)) = V c main_v21 _
  congr 1
  funext a; apply Fin.ext
  match a with
  | ⟨0, _⟩ => show win0_4.index t (0 : Fin 2) * 1 + 1 * z.val = z.val; omega
  | ⟨1, _⟩ => show win0_4.index t (1 : Fin 2) * 256 + 1 * q.val = q.val; omega

/-- Where tile `t`'s output entry `(r, q)` sits in the output array: row `2000 t + r`, channel `q`. -/
theorem dense0_outTile_emb (t : Fin cfg0.N) (r : Fin 2000) (q : Fin 256) :
    ((cfg0.win 5).blk t).view.emb (ix2 r q) = ix2 (⟨t.val * 2000 + r.val, dense0_row_lt t r⟩ : Fin 50000) q := by
  obtain ⟨-, -, -, -, -, -, -, -, -, -, e0, e1⟩ := dense0_index t
  funext a; apply Fin.ext
  match a with
  | ⟨0, _⟩ => show win0_5.index t (0 : Fin 2) * 2000 + 1 * r.val = t.val * 2000 + r.val; omega
  | ⟨1, _⟩ => show win0_5.index t (1 : Fin 2) * 256 + 1 * q.val = q.val; omega

set_option maxHeartbeats 400000 in
/-- What tile `t` writes back is its block of the layer of the arrays the region found: the body's one store is the
    whole buffer, its loads are the whole input tiles, and entry `(r, q)` of the tile's result is the layer's entry at
    node `2000 t + r`, channel `q`, the tile's reads being the arrays' at that node. -/
theorem dense0_writes (c : Dev nD) (t : Fin cfg0.N) :
    (dat0 (F := Ideal) V c).flushed 5 t
      = ((cfg0.win 5).blk t).view.read (Elt Ideal)
          (Cert.Spec.layer (V c main_v20) (V c main_arg0) (V c main_arg3) (V c main_arg4)
            (fun q => V c main_v21 (ix2 (0 : Fin 1) q))) := by
  show (cfg0.win 5).cut (grid0.coords t) ((dat0 (F := Ideal) V c).after 5 t) = _
  rw [after0_5]
  unfold out0_5
  rw [View.canon_unit_zero dense0_origin]
  simp only [View.ld_unit_zero (S := S2000x128) dense0_origin, View.ld_unit_zero (S := S128x256) dense0_origin,
    View.ld_unit_zero (S := S1x256) dense0_origin]
  funext j
  obtain ⟨r, q, rfl⟩ : ∃ (r : Fin 2000) (q : Fin 256), j = ix2 r q := ⟨j 0, j 1, eq_ix2 j⟩
  show k0_pay1 (F := Ideal) (iblk0 V c 0 t) (iblk0 V c 1 t) (iblk0 V c 2 t) (iblk0 V c 3 t) (iblk0 V c 4 t) (ix2 r q)
    = Cert.Spec.layer (V c main_v20) (V c main_arg0) (V c main_arg3) (V c main_arg4)
        (fun q => V c main_v21 (ix2 (0 : Fin 1) q)) (((cfg0.win 5).blk t).view.emb (ix2 r q))
  rw [Pay.dense128_apply, dense0_outTile_emb, Cert.Spec.layer_apply]
  unfold Cert.Spec.layerAt
  simp only [dense0_aggTile, dense0_featTile, dense0_weightAgg, dense0_weightSelf, dense0_bias]

/-- An index of the output array is in tile `t`'s block iff each coordinate is in the block's range on its axis. -/
theorem dense0_mem_outTile (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v22).slice (win0_5.rect t)).set ↔ _
  rw [View.set_slice_whole, Rect.mem_set_unit]
  exact Iff.rfl

/-- The tiles cover the output array: row `p` is in tile `p / 2000`, and every tile is written back. -/
theorem dense0_cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, -, -, -, -, -, -, e0, e1⟩ := dense0_index t
  refine ⟨t, flush0_5 t, ?_⟩
  rw [dense0_mem_outTile]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 256 ≤ (i 1).val ∧ (i 1).val < win0_5.index t (1 : Fin 2) * 256 + 256
    omega

/-- After region 0 its output array is the layer of the arrays it found: the aggregate `main_v20`, the features
    `main_arg0`, the weights `main_arg3`, `main_arg4`, and the bias row `main_v21`. -/
theorem region0_value (c : Dev nD) :
    (dat0 (F := Ideal) V c).arrAt 5 cfg0.N
      = Cert.Spec.layer (V c main_v20) (V c main_arg0) (V c main_arg3) (V c main_arg4)
          (fun q => V c main_v21 (ix2 (0 : Fin 1) q)) :=
  (dat0 (F := Ideal) V c).arrAt_eq_of_cover 5 _ (fun t _ => dense0_writes V c t) dense0_cover

end Cert.KernelIdeal.RegionValue

end
-- ==== Proof.Reg1.lean ====
/-
  The second layer's region: what its output array holds after the 25 tiles.

  Tile `t` reads rows `2000 t … 2000 t + 1999` of the aggregate and of the first layer's output, the whole weight matrices and
  the bias row, and writes rows `2000 t … 2000 t + 1999` of the output. The tiles cover the 50000 rows, so the output
  array ends as the layer of the arrays the region found, entry by entry.
-/
import proofs.«402830_j32744830665311_3_alg».proof.Proof.Gen.KernelIdeal.Frame
import proofs.«402830_j32744830665311_3_alg».proof.Proof.Spec
import proofs.«402830_j32744830665311_3_alg».proof.Proof.PayDense
import proofs.«402830_j32744830665311_3_alg».proof.Proof.PayPool
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

-- the TensorCore's buffer contents when the region is entered
variable (V : (c : Dev nD) → (b : Ref sig .tc) → Buf (Elt Ideal) ((c : Thread nD τ).loc b))

/-- A whole-buffer access starts at the origin. -/
theorem dense1_origin : (![0, 0] : Fin 2 → Nat) = fun _ => 0 := funext fun a => by fin_cases a <;> rfl

/-- The index maps over the 25 tiles: the aggregate, the first layer's output and the output move along the rows with the tile;
    the weights and the bias stay at block `(0, 0)`. -/
theorem dense1_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of tile `t` is one of the 50000 rows. -/
theorem dense1_row_lt (t : Fin cfg1.N) (r : Fin 2000) : t.val * 2000 + r.val < 50000 := by
  have := t.isLt; have h : cfg1.N = 25 := N_1; omega

/-- Tile `t` of the aggregate at row `r`, channel `k`, is the aggregate at row `2000 t + r`: a block's coordinate is
    the block index times the block size plus the coordinate inside the block. -/
theorem dense1_aggTile (c : Dev nD) (t : Fin cfg1.N) (r : Fin 2000) (k : Fin 256) :
    iblk1 (F := Ideal) V c 0 t (ix2 r k) = V c main_v32 (ix2 ⟨t.val * 2000 + r.val, dense1_row_lt t r⟩ k) := by
  obtain ⟨e0, e1, -⟩ := dense1_index t
  show V c main_v32 (((cfg1.win 0).blk t).view.emb (ix2 r k)) = V c main_v32 _
  congr 1
  funext a; apply Fin.ext
  match a with
  | ⟨0, _⟩ => show win1_0.index t (0 : Fin 2) * 2000 + 1 * r.val = t.val * 2000 + r.val; omega
  | ⟨1, _⟩ => show win1_0.index t (1 : Fin 2) * 256 + 1 * k.val = k.val; omega

/-- Tile `t` of the first layer's output at row `r`, channel `k`, is that array at row `2000 t + r`. -/
theorem dense1_featTile (c : Dev nD) (t : Fin cfg1.N) (r : Fin 2000) (k : Fin 256) :
    iblk1 (F := Ideal) V c 1 t (ix2 r k) = V c main_v22 (ix2 ⟨t.val * 2000 + r.val, dense1_row_lt t r⟩ k) := by
  obtain ⟨-, -, e0, e1, -⟩ := dense1_index t
  show V c main_v22 (((cfg1.win 1).blk t).view.emb (ix2 r k)) = V c main_v22 _
  congr 1
  funext a; apply Fin.ext
  match a with
  | ⟨0, _⟩ => show win1_1.index t (0 : Fin 2) * 2000 + 1 * r.val = t.val * 2000 + r.val; omega
  | ⟨1, _⟩ => show win1_1.index t (1 : Fin 2) * 256 + 1 * k.val = k.val; omega

/-- Every tile sees the whole weight matrix that multiplies the aggregate. -/
theorem dense1_weightAgg (c : Dev nD) (t : Fin cfg1.N) (k : Fin 256) (q : Fin 256) :
    iblk1 (F := Ideal) V c 2 t (ix2 k q) = V c main_arg6 (ix2 k q) := by
  obtain ⟨-, -, -, -, e0, e1, -⟩ := dense1_index t
  show V c main_arg6 (((cfg1.win 2).blk t).view.emb (ix2 k q)) = V c main_arg6 _
  congr 1
  funext a; apply Fin.ext
  match a with
  | ⟨0, _⟩ => show win1_2.index t (0 : Fin 2) * 256 + 1 * k.val = k.val; omega
  | ⟨1, _⟩ => show win1_2.index t (1 : Fin 2) * 256 + 1 * q.val = q.val; omega

/-- Every tile sees the whole weight matrix that multiplies the node's own row. -/
theorem dense1_weightSelf (c : Dev nD) (t : Fin cfg1.N) (k : Fin 256) (q : Fin 256) :
    iblk1 (F := Ideal) V c 3 t (ix2 k q) = V c main_arg7 (ix2 k q) := by
  obtain ⟨-, -, -, -, -, -, e0, e1, -⟩ := dense1_index t
  show V c main_arg7 (((cfg1.win 3).blk t).view.emb (ix2 k q)) = V c main_arg7 _
  congr 1
  funext a; apply Fin.ext
  match a with
  | ⟨0, _⟩ => show win1_3.index t (0 : Fin 2) * 256 + 1 * k.val = k.val; omega
  | ⟨1, _⟩ => show win1_3.index t (1 : Fin 2) * 256 + 1 * q.val = q.val; omega

/-- Every tile sees the whole bias row. -/
theorem dense1_bias (c : Dev nD) (t : Fin cfg1.N) (z : Fin 1) (q : Fin 256) :
    iblk1 (F := Ideal) V c 4 t (ix2 z q) = V c main_v33 (ix2 z q) := by
  obtain ⟨-, -, -, -, -, -, -, -, e0, e1, -⟩ := dense1_index t
  show V c main_v33 (((cfg1.win 4).blk t).view.emb (ix2 z q)) = V c main_v33 _
  congr 1
  funext a; apply Fin.ext
  match a with
  | ⟨0, _⟩ => show win1_4.index t (0 : Fin 2) * 1 + 1 * z.val = z.val; omega
  | ⟨1, _⟩ => show win1_4.index t (1 : Fin 2) * 256 + 1 * q.val = q.val; omega

/-- Where tile `t`'s output entry `(r, q)` sits in the output array: row `2000 t + r`, channel `q`. -/
theorem dense1_outTile_emb (t : Fin cfg1.N) (r : Fin 2000) (q : Fin 256) :
    ((cfg1.win 5).blk t).view.emb (ix2 r q) = ix2 (⟨t.val * 2000 + r.val, dense1_row_lt t r⟩ : Fin 50000) q := by
  obtain ⟨-, -, -, -, -, -, -, -, -, -, e0, e1⟩ := dense1_index t
  funext a; apply Fin.ext
  match a with
  | ⟨0, _⟩ => show win1_5.index t (0 : Fin 2) * 2000 + 1 * r.val = t.val * 2000 + r.val; omega
  | ⟨1, _⟩ => show win1_5.index t (1 : Fin 2) * 256 + 1 * q.val = q.val; omega

set_option maxHeartbeats 400000 in
/-- What tile `t` writes back is its block of the layer of the arrays the region found: the body's one store is the
    whole buffer, its loads are the whole input tiles, and entry `(r, q)` of the tile's result is the layer's entry at
    node `2000 t + r`, channel `q`, the tile's reads being the arrays' at that node. -/
theorem dense1_writes (c : Dev nD) (t : Fin cfg1.N) :
    (dat1 (F := Ideal) V c).flushed 5 t
      = ((cfg1.win 5).blk t).view.read (Elt Ideal)
          (Cert.Spec.layer (V c main_v32) (V c main_v22) (V c main_arg6) (V c main_arg7)
            (fun q => V c main_v33 (ix2 (0 : Fin 1) q))) := by
  show (cfg1.win 5).cut (grid1.coords t) ((dat1 (F := Ideal) V c).after 5 t) = _
  rw [after1_5]
  unfold out1_5
  rw [View.canon_unit_zero dense1_origin]
  simp only [View.ld_unit_zero (S := S2000x256) dense1_origin, View.ld_unit_zero (S := S256x256) dense1_origin,
    View.ld_unit_zero (S := S1x256) dense1_origin]
  funext j
  obtain ⟨r, q, rfl⟩ : ∃ (r : Fin 2000) (q : Fin 256), j = ix2 r q := ⟨j 0, j 1, eq_ix2 j⟩
  show k1_pay1 (F := Ideal) (iblk1 V c 0 t) (iblk1 V c 1 t) (iblk1 V c 2 t) (iblk1 V c 3 t) (iblk1 V c 4 t) (ix2 r q)
    = Cert.Spec.layer (V c main_v32) (V c main_v22) (V c main_arg6) (V c main_arg7)
        (fun q => V c main_v33 (ix2 (0 : Fin 1) q)) (((cfg1.win 5).blk t).view.emb (ix2 r q))
  rw [Pay.dense256_apply, dense1_outTile_emb, Cert.Spec.layer_apply]
  unfold Cert.Spec.layerAt
  simp only [dense1_aggTile, dense1_featTile, dense1_weightAgg, dense1_weightSelf, dense1_bias]

/-- An index of the output array is in tile `t`'s block iff each coordinate is in the block's range on its axis. -/
theorem dense1_mem_outTile (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v34).slice (win1_5.rect t)).set ↔ _
  rw [View.set_slice_whole, Rect.mem_set_unit]
  exact Iff.rfl

/-- The tiles cover the output array: row `p` is in tile `p / 2000`, and every tile is written back. -/
theorem dense1_cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, -, -, -, -, -, -, e0, e1⟩ := dense1_index t
  refine ⟨t, flush1_5 t, ?_⟩
  rw [dense1_mem_outTile]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 256 ≤ (i 1).val ∧ (i 1).val < win1_5.index t (1 : Fin 2) * 256 + 256
    omega

/-- After region 1 its output array is the layer of the arrays it found: the aggregate `main_v32`, the first layer's output
    `main_v22`, the weights `main_arg6`, `main_arg7`, and the bias row `main_v33`. -/
theorem region1_value (c : Dev nD) :
    (dat1 (F := Ideal) V c).arrAt 5 cfg1.N
      = Cert.Spec.layer (V c main_v32) (V c main_v22) (V c main_arg6) (V c main_arg7)
          (fun q => V c main_v33 (ix2 (0 : Fin 1) q)) :=
  (dat1 (F := Ideal) V c).arrAt_eq_of_cover 5 _ (fun t _ => dense1_writes V c t) dense1_cover

end Cert.KernelIdeal.RegionValue

end
-- ==== Proof.Reg2.lean ====
/-
  The fused third layer and pool: what the 64 × 256 output holds after the 25 tiles.

  The output block never moves. The first tile zeroes it; every tile then adds, at graph `g`, channel `d`, the sum
  over its 2000 nodes of the indicator of the node's graph word times the third layer's row entry; the block is
  written back once, after the last tile. So the array ends as the pool of the third layer's rows, the running sum of
  the 25 tiles' contributions from zero being the sum over all 50000 nodes.
-/
import proofs.«402830_j32744830665311_3_alg».proof.Proof.Gen.KernelIdeal.Frame
import proofs.«402830_j32744830665311_3_alg».proof.Proof.Spec
import proofs.«402830_j32744830665311_3_alg».proof.Proof.PayDense
import proofs.«402830_j32744830665311_3_alg».proof.Proof.PayPool
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

-- the TensorCore's buffer contents when the region is entered
variable (V : (c : Dev nD) → (b : Ref sig .tc) → Buf (Elt Ideal) ((c : Thread nD τ).loc b))

/-- The zero offsets of a whole-block access. -/
theorem pool2_origin : (![0, 0] : Fin 2 → Nat) = fun _ => 0 := funext fun a => by fin_cases a <;> rfl

section Pool2Pieces
variable {F : FTy → Type} [FloatOps F]

/-- At a point other than the first the body's one store covers the output block: the block ends as the update of
    the six input blocks over what the block held. -/
theorem pool2_piece_B (c : Dev nD) (i : grid2.Coords)
    (a1 : Memref sig .tc .vmem S2000x256 .f32) (h1 : a1.IsWhole) (a2 : Memref sig .tc .vmem S2000x256 .f32) (h2 : a2.IsWhole)
    (a3 : Memref sig .tc .vmem S256x256 .f32) (h3 : a3.IsWhole) (a4 : Memref sig .tc .vmem S256x256 .f32) (h4 : a4.IsWhole)
    (a5 : Memref sig .tc .vmem S1x256 .f32) (h5 : a5.IsWhole) (a6 : Memref sig .tc .vmem S2000x1 .i32) (h6 : a6.IsWhole)
    (a7 : Memref sig .tc .vmem S64x256 .f32) (h7 : a7.IsWhole) (hc : ¬cond2_0 i)
    (x0 x1 : Vec F S2000x256 .f32) (x2 x3 : Vec F S256x256 .f32) (x4 : Vec F S1x256 .f32) (x5 : Vec F S2000x1 .i32)
    (xo : Vec F S64x256 .f32) :
    out2_B_6 c i a1 h1 a2 h2 a3 h3 a4 h4 a5 h5 a6 h6 a7 h7 hc x0 x1 x2 x3 x4 x5 xo = k2_pay2 x0 x1 x2 x3 x4 x5 xo := by
  unfold out2_B_6
  rw [View.read_writes_eq_canon _ _ _ (cover2_B_6 c i a1 h1 a2 h2 a3 h3 a4 h4 a5 h5 a6 h6 a7 h7 hc x0 x1 x2 x3 x4 x5 xo)]
  unfold kernelRun2_B
  dsimp only
  sl_unfold_words
  rw [View.canon_unit_zero pool2_origin]
  simp only [View.readAt_eq_ld, h1.read_unread, h2.read_unread, h3.read_unread, h4.read_unread, h5.read_unread,
    h6.read_unread, h7.read_unread, View.ld_unit_zero (S := S2000x256) pool2_origin, View.ld_unit_zero (S := S256x256) pool2_origin,
    View.ld_unit_zero (S := S1x256) pool2_origin, View.ld_unit_zero (S := S2000x1) pool2_origin, View.ld_unit_zero (S := S64x256) pool2_origin]

/-- At the first point the body stores the zero block, reads it back, and stores the update over it: the block ends
    as the update of the six input blocks over the zero block. -/
theorem pool2_piece_A (c : Dev nD) (i : grid2.Coords)
    (a1 : Memref sig .tc .vmem S2000x256 .f32) (h1 : a1.IsWhole) (a2 : Memref sig .tc .vmem S2000x256 .f32) (h2 : a2.IsWhole)
    (a3 : Memref sig .tc .vmem S256x256 .f32) (h3 : a3.IsWhole) (a4 : Memref sig .tc .vmem S256x256 .f32) (h4 : a4.IsWhole)
    (a5 : Memref sig .tc .vmem S1x256 .f32) (h5 : a5.IsWhole) (a6 : Memref sig .tc .vmem S2000x1 .i32) (h6 : a6.IsWhole)
    (a7 : Memref sig .tc .vmem S64x256 .f32) (h7 : a7.IsWhole) (hc : cond2_0 i)
    (x0 x1 : Vec F S2000x256 .f32) (x2 x3 : Vec F S256x256 .f32) (x4 : Vec F S1x256 .f32) (x5 : Vec F S2000x1 .i32) :
    out2_A_6 c i a1 h1 a2 h2 a3 h3 a4 h4 a5 h5 a6 h6 a7 h7 hc x0 x1 x2 x3 x4 x5 = k2_pay2 x0 x1 x2 x3 x4 x5 k2_pay1 := by
  unfold out2_A_6
  rw [View.read_writes_eq_canon _ _ _ (cover2_A_6 c i a1 h1 a2 h2 a3 h3 a4 h4 a5 h5 a6 h6 a7 h7 hc x0 x1 x2 x3 x4 x5)]
  unfold kernelRun2_A
  dsimp only
  sl_unfold_words
  rw [View.canon_cons_unit_zero (S := S64x256) pool2_origin, View.readCov_unit_zero (S := S64x256) _ pool2_origin]
  simp only [View.readAt_eq_ld, h1.read_unread, h2.read_unread, h3.read_unread, h4.read_unread, h5.read_unread,
    h6.read_unread, View.ld_unit_zero (S := S2000x256) pool2_origin, View.ld_unit_zero (S := S256x256) pool2_origin,
    View.ld_unit_zero (S := S1x256) pool2_origin, View.ld_unit_zero (S := S2000x1) pool2_origin]

end Pool2Pieces

/-! ## The blocks a point reads -/

/-- The grid has 25 points. -/
theorem pool2_point_lt (t : Fin cfg2.N) : t.val < 25 := lt_of_lt_of_eq t.isLt (show cfg2.N = 25 from N_2)

/-- The row windows move along rows with the point; the others stay at block (0, 0). -/
theorem pool2_index0 : ∀ t : Fin cfg2.N, win2_0.index t 0 = t.val ∧ win2_0.index t 1 = 0 :=
  (by decide +kernel : ∀ t : Fin grid2.N, win2_0.index t 0 = t.val ∧ win2_0.index t 1 = 0)
theorem pool2_index1 : ∀ t : Fin cfg2.N, win2_1.index t 0 = t.val ∧ win2_1.index t 1 = 0 :=
  (by decide +kernel : ∀ t : Fin grid2.N, win2_1.index t 0 = t.val ∧ win2_1.index t 1 = 0)
theorem pool2_index2 : ∀ t : Fin cfg2.N, win2_2.index t 0 = 0 ∧ win2_2.index t 1 = 0 :=
  (by decide +kernel : ∀ t : Fin grid2.N, win2_2.index t 0 = 0 ∧ win2_2.index t 1 = 0)
theorem pool2_index3 : ∀ t : Fin cfg2.N, win2_3.index t 0 = 0 ∧ win2_3.index t 1 = 0 :=
  (by decide +kernel : ∀ t : Fin grid2.N, win2_3.index t 0 = 0 ∧ win2_3.index t 1 = 0)
theorem pool2_index4 : ∀ t : Fin cfg2.N, win2_4.index t 0 = 0 ∧ win2_4.index t 1 = 0 :=
  (by decide +kernel : ∀ t : Fin grid2.N, win2_4.index t 0 = 0 ∧ win2_4.index t 1 = 0)
theorem pool2_index5 : ∀ t : Fin cfg2.N, win2_5.index t 0 = t.val ∧ win2_5.index t 1 = 0 :=
  (by decide +kernel : ∀ t : Fin grid2.N, win2_5.index t 0 = t.val ∧ win2_5.index t 1 = 0)

/-- The blocks of the six inputs at point `t`, at their literal types. -/
abbrev pool2_aggTile (c : Dev nD) (t : Fin cfg2.N) : Vec Ideal S2000x256 .f32 := iblk2 V c 0 t
abbrev pool2_featTile (c : Dev nD) (t : Fin cfg2.N) : Vec Ideal S2000x256 .f32 := iblk2 V c 1 t
abbrev pool2_weightAgg (c : Dev nD) (t : Fin cfg2.N) : Vec Ideal S256x256 .f32 := iblk2 V c 2 t
abbrev pool2_weightSelf (c : Dev nD) (t : Fin cfg2.N) : Vec Ideal S256x256 .f32 := iblk2 V c 3 t
abbrev pool2_bias (c : Dev nD) (t : Fin cfg2.N) : Vec Ideal S1x256 .f32 := iblk2 V c 4 t
abbrev pool2_wordTile (c : Dev nD) (t : Fin cfg2.N) : Vec Ideal S2000x1 .i32 := iblk2 V c 5 t

/-- Row `r` of the aggregate's block at point `t` is row `2000 t + r` of the aggregate. -/
theorem pool2_aggTile_apply (c : Dev nD) (t : Fin cfg2.N) (r : Fin 2000) (k : Fin 256) :
    pool2_aggTile V c t (ix2 r k)
      = V c main_v44 (ix2 (⟨t.val * 2000 + r.val, by have := pool2_point_lt t; omega⟩ : Fin 50000) k) := by
  have hi := pool2_index0 t
  unfold pool2_aggTile iblk2
  rw [View.read_apply]
  show V c main_v44 _ = V c main_v44 _
  congr 1
  funext a
  apply Fin.ext
  match a with
  | ⟨0, _⟩ => show win2_0.index t 0 * 2000 + 1 * r.val = t.val * 2000 + r.val; rw [hi.1]; omega
  | ⟨1, _⟩ => show win2_0.index t 1 * 256 + 1 * k.val = k.val; rw [hi.2]; omega

/-- Row `r` of the features' block at point `t` is row `2000 t + r` of the features. -/
theorem pool2_featTile_apply (c : Dev nD) (t : Fin cfg2.N) (r : Fin 2000) (k : Fin 256) :
    pool2_featTile V c t (ix2 r k)
      = V c main_v34 (ix2 (⟨t.val * 2000 + r.val, by have := pool2_point_lt t; omega⟩ : Fin 50000) k) := by
  have hi := pool2_index1 t
  unfold pool2_featTile iblk2
  rw [View.read_apply]
  show V c main_v34 _ = V c main_v34 _
  congr 1
  funext a
  apply Fin.ext
  match a with
  | ⟨0, _⟩ => show win2_1.index t 0 * 2000 + 1 * r.val = t.val * 2000 + r.val; rw [hi.1]; omega
  | ⟨1, _⟩ => show win2_1.index t 1 * 256 + 1 * k.val = k.val; rw [hi.2]; omega

/-- The two weight blocks and the bias block are the whole arrays at every point. -/
theorem pool2_weightAgg_apply (c : Dev nD) (t : Fin cfg2.N) (k : Fin 256) (q : Fin 256) :
    pool2_weightAgg V c t (ix2 k q) = V c main_arg6 (ix2 k q) := by
  have hi := pool2_index2 t
  unfold pool2_weightAgg iblk2
  rw [View.read_apply]
  show V c main_arg6 _ = V c main_arg6 _
  congr 1
  funext a
  apply Fin.ext
  match a with
  | ⟨0, _⟩ => show win2_2.index t 0 * 256 + 1 * k.val = k.val; rw [hi.1]; omega
  | ⟨1, _⟩ => show win2_2.index t 1 * 256 + 1 * q.val = q.val; rw [hi.2]; omega

theorem pool2_weightSelf_apply (c : Dev nD) (t : Fin cfg2.N) (k : Fin 256) (q : Fin 256) :
    pool2_weightSelf V c t (ix2 k q) = V c main_arg7 (ix2 k q) := by
  have hi := pool2_index3 t
  unfold pool2_weightSelf iblk2
  rw [View.read_apply]
  show V c main_arg7 _ = V c main_arg7 _
  congr 1
  funext a
  apply Fin.ext
  match a with
  | ⟨0, _⟩ => show win2_3.index t 0 * 256 + 1 * k.val = k.val; rw [hi.1]; omega
  | ⟨1, _⟩ => show win2_3.index t 1 * 256 + 1 * q.val = q.val; rw [hi.2]; omega

theorem pool2_bias_apply (c : Dev nD) (t : Fin cfg2.N) (q : Fin 256) :
    pool2_bias V c t (ix2 (0 : Fin 1) q) = V c main_v45 (ix2 (0 : Fin 1) q) := by
  have hi := pool2_index4 t
  unfold pool2_bias iblk2
  rw [View.read_apply]
  show V c main_v45 _ = V c main_v45 _
  congr 1
  funext a
  apply Fin.ext
  match a with
  | ⟨0, _⟩ => show win2_4.index t 0 * 1 + 1 * (0 : Fin 1).val = (0 : Fin 1).val; rw [hi.1]; rfl
  | ⟨1, _⟩ => show win2_4.index t 1 * 256 + 1 * q.val = q.val; rw [hi.2]; omega

/-- Word `r` of the graph words' block at point `t` is word `2000 t + r`. -/
theorem pool2_wordTile_apply (c : Dev nD) (t : Fin cfg2.N) (r : Fin 2000) :
    pool2_wordTile V c t (ix2 r (0 : Fin 1))
      = V c main_v46 (ix2 (⟨t.val * 2000 + r.val, by have := pool2_point_lt t; omega⟩ : Fin 50000) (0 : Fin 1)) := by
  have hi := pool2_index5 t
  unfold pool2_wordTile iblk2
  rw [View.read_apply]
  show V c main_v46 _ = V c main_v46 _
  congr 1
  funext a
  apply Fin.ext
  match a with
  | ⟨0, _⟩ => show win2_5.index t 0 * 2000 + 1 * r.val = t.val * 2000 + r.val; rw [hi.1]; omega
  | ⟨1, _⟩ => show win2_5.index t 1 * 1 + 1 * (0 : Fin 1).val = (0 : Fin 1).val; rw [hi.2]; rfl

/-! ## One tile's step -/

/-- The graph word of node `n`. -/
abbrev pool2_words (c : Dev nD) : Fin 50000 → BitVec 32 := fun n => V c main_v46 (ix2 n (0 : Fin 1))

/-- The third layer's rows, of the arrays the region finds. -/
abbrev pool2_rows (c : Dev nD) : Cert.Spec.Mat 50000 256 :=
  Cert.Spec.layer (V c main_v44) (V c main_v34) (V c main_arg6) (V c main_arg7) (fun q => V c main_v45 (ix2 (0 : Fin 1) q))

/-- At point `t` the update adds tile `t`'s contribution to whatever the accumulator block holds. -/
theorem pool2_step (c : Dev nD) (t : Fin cfg2.N) (acc : Vec Ideal S64x256 .f32) (g : Fin 64) (d : Fin 256) :
    k2_pay2 (F := Ideal) (pool2_aggTile V c t) (pool2_featTile V c t) (pool2_weightAgg V c t) (pool2_weightSelf V c t) (pool2_bias V c t) (pool2_wordTile V c t) acc (ix2 g d)
      = acc (ix2 g d) + Cert.Spec.tileAt (pool2_words V c) (pool2_rows V c) g d ⟨t.val, pool2_point_lt t⟩ := by
  refine (Pay.poolStep_apply (pool2_aggTile V c t) (pool2_featTile V c t) (pool2_weightAgg V c t) (pool2_weightSelf V c t) (pool2_bias V c t) (pool2_wordTile V c t) acc g d).trans ?_
  unfold Cert.Spec.tileAt
  congr 1
  refine Finset.sum_congr rfl (fun r _ => ?_)
  rw [pool2_wordTile_apply V c t r, pool2_bias_apply V c t d]
  simp only [pool2_aggTile_apply V c t r, pool2_featTile_apply V c t r, pool2_weightAgg_apply V c t, pool2_weightSelf_apply V c t]
  rfl

/-! ## The accumulator after each point -/

/-- At the first point the block is zeroed and then updated: it holds tile 0's contribution. -/
theorem pool2_first (c : Dev nD) (t : Fin cfg2.N) (hc : cond2_0 (grid2.coords t)) (g : Fin 64) (d : Fin 256) :
    out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (pool2_aggTile V c t) (pool2_featTile V c t) (pool2_weightAgg V c t) (pool2_weightSelf V c t) (pool2_bias V c t) (pool2_wordTile V c t) (ix2 g d)
      = Cert.Spec.tileAt (pool2_words V c) (pool2_rows V c) g d ⟨t.val, pool2_point_lt t⟩ := by
  refine (congrFun (pool2_piece_A (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (pool2_aggTile V c t) (pool2_featTile V c t) (pool2_weightAgg V c t) (pool2_weightSelf V c t) (pool2_bias V c t) (pool2_wordTile V c t)) (ix2 g d)).trans ?_
  refine (pool2_step V c t (k2_pay1 (F := Ideal)) g d).trans ?_
  rw [Pay.reset_apply g d, zero_add]

/-- At a later point the block is updated over what it held. -/
theorem pool2_later (c : Dev nD) (t : Fin cfg2.N) (hc : ¬cond2_0 (grid2.coords t)) (acc : Vec Ideal S64x256 .f32)
    (g : Fin 64) (d : Fin 256) :
    out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (pool2_aggTile V c t) (pool2_featTile V c t) (pool2_weightAgg V c t) (pool2_weightSelf V c t) (pool2_bias V c t) (pool2_wordTile V c t) acc (ix2 g d)
      = acc (ix2 g d) + Cert.Spec.tileAt (pool2_words V c) (pool2_rows V c) g d ⟨t.val, pool2_point_lt t⟩ := by
  refine (congrFun (pool2_piece_B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (pool2_aggTile V c t) (pool2_featTile V c t) (pool2_weightAgg V c t) (pool2_weightSelf V c t) (pool2_bias V c t) (pool2_wordTile V c t) acc) (ix2 g d)).trans ?_
  exact pool2_step V c t acc g d

/-- After point `n` the accumulator block holds, at graph `g`, channel `d`, the sum of the contributions of tiles
    `0, …, n`: by induction on the point, the first zeroing the block, each later one adding to what the one before left. -/
theorem pool2_running (c : Dev nD) (g : Fin 64) (d : Fin 256) :
    ∀ (n : ℕ) (h : n < cfg2.N), outsAt2 V c n h (ix2 g d)
      = ∑ s ∈ Finset.range (n + 1), (if hs : s < 25 then Cert.Spec.tileAt (pool2_words V c) (pool2_rows V c) g d ⟨s, hs⟩ else 0)
  | 0, h => by
    rw [outsAt2_A V c ⟨0, h⟩ rfl]
    refine (pool2_first V c ⟨0, h⟩ _ g d).trans ?_
    rw [Finset.sum_range_one, dif_pos (by decide : (0 : ℕ) < 25)]
  | n + 1, h => by
    have hlt : n + 1 < 25 := pool2_point_lt ⟨n + 1, h⟩
    have hB : ¬(⟨n + 1, h⟩ : Fin cfg2.N).val % 25 = 0 := by dsimp only; omega
    rw [outsAt2_B V c ⟨n + 1, h⟩ hB]
    dsimp only
    refine (pool2_later V c ⟨n + 1, h⟩ _ (outsAt2 V c n (Nat.lt_of_succ_lt h)) g d).trans ?_
    rw [pool2_running c g d n (Nat.lt_of_succ_lt h), Finset.sum_range_succ _ (n + 1), dif_pos hlt]

/-! ## The array after the region -/

/-- After the last point the accumulator block holds the pool: the 25 tiles' contributions add up to it. -/
theorem pool2_total (c : Dev nD) (h : 24 < cfg2.N) : outsAt2 V c 24 h = Cert.Spec.pool (pool2_words V c) (pool2_rows V c) := by
  funext j
  obtain ⟨g, d, rfl⟩ : ∃ g d, j = ix2 g d := ⟨j 0, j 1, eq_ix2 j⟩
  rw [pool2_running V c g d 24 h, Cert.Spec.pool_apply, ← Cert.Spec.sum_tileAt, Finset.sum_range]
  exact Finset.sum_congr rfl (fun s _ => dif_pos s.isLt)

/-- The last point. -/
abbrev pool2_last : Fin cfg2.N := ⟨24, by rw [show cfg2.N = 25 from N_2]; decide⟩

/-- The pool, as contents of the output array. -/
abbrev pool2_result (c : Dev nD) : Buf (Elt Ideal) ((c : Thread nD τ).loc main_v47) := Cert.Spec.pool (pool2_words V c) (pool2_rows V c)

/-- The one write-back, at the last point, writes the pool: block (0, 0) of the 64 × 256 array read through zero
    offsets is the array. -/
theorem pool2_flushed (c : Dev nD) (t : Fin cfg2.N) (hf : (cfg2.win 6).flush t = true) :
    (dat2 V c).flushed 6 t = ((cfg2.win 6).blk t).view.read (Elt Ideal) (pool2_result V c) := by
  have h24 : t.val = 24 := by have := (flush2_6 t).mp hf; have := pool2_point_lt t; omega
  obtain rfl : t = pool2_last := Fin.ext h24
  show (cfg2.win 6).cut (grid2.coords pool2_last) ((dat2 V c).after 6 pool2_last) = _
  rw [after2_6, pool2_total]
  have hz' : (fun a => win2_6.index pool2_last a * main_v47.ty.shape.size a) = fun _ => 0 :=
    funext fun a => by fin_cases a <;> decide
  exact (Memref.read_access_unit_zero (Elt Ideal) main_v47 hz' (fun a => by rw [congrFun hz' a]; simp) (pool2_result V c)).symm

/-- Every entry of the array lies in the block the last point writes back. -/
theorem pool2_cover (c : Dev nD) (i : ((cfg2.win 6).arr.view.loc (c.tc : Thread nD τ)).2.ty.Idx) :
    ∃ t : Fin cfg2.N, (cfg2.win 6).flush t = true ∧ i ∈ ((cfg2.win 6).blk t).view.set :=
  ⟨pool2_last, (flush2_6 pool2_last).mpr rfl, by
    show i ∈ ((View.whole main_v47).slice (win2_6.rect pool2_last)).set
    rw [View.set_slice_whole, Rect.mem_set_unit]
    intro a
    have h0 : (i 0 : Nat) < 64 := (i 0).isLt
    have h1 : (i 1 : Nat) < 256 := (i 1).isLt
    match a with
    | ⟨0, _⟩ =>
      show win2_6.index pool2_last 0 * win2_6.size 0 ≤ (i 0 : Nat)
        ∧ (i 0 : Nat) < win2_6.index pool2_last 0 * win2_6.size 0 + win2_6.xsize (grid2.coords pool2_last) 0
      rw [show win2_6.index pool2_last 0 * win2_6.size 0 = 0 from by decide +kernel,
        show win2_6.xsize (grid2.coords pool2_last) 0 = 64 from by decide +kernel]
      omega
    | ⟨1, _⟩ =>
      show win2_6.index pool2_last 1 * win2_6.size 1 ≤ (i 1 : Nat)
        ∧ (i 1 : Nat) < win2_6.index pool2_last 1 * win2_6.size 1 + win2_6.xsize (grid2.coords pool2_last) 1
      rw [show win2_6.index pool2_last 1 * win2_6.size 1 = 0 from by decide +kernel,
        show win2_6.xsize (grid2.coords pool2_last) 1 = 256 from by decide +kernel]
      omega⟩

/-- After region 2 its output array is the pool, by the graph words `main_v46`, of the layer of the arrays it found:
    the aggregate `main_v44`, the second layer's output `main_v34`, the weights `main_arg6`, `main_arg7`, and the
    bias row `main_v45`. -/
theorem region2_value (c : Dev nD) :
    (dat2 (F := Ideal) V c).arrAt 6 cfg2.N
      = Cert.Spec.pool (fun n => V c main_v46 (ix2 n (0 : Fin 1)))
          (Cert.Spec.layer (V c main_v44) (V c main_v34) (V c main_arg6) (V c main_arg7)
            (fun q => V c main_v45 (ix2 (0 : Fin 1) q))) :=
  (dat2 (F := Ideal) V c).arrAt_eq_of_cover 6 (pool2_result V c) (pool2_flushed V c) (pool2_cover c)

end Cert.KernelIdeal.RegionValue

end
-- ==== Proof.KernelValue.lean ====
/-
  The kernel program's two results as functions of its nine arguments.

  The program's buffers are followed from the launch to the return, boundary by boundary: a stretch of host
  operations gives each buffer it writes the operations' value of the buffers it reads and leaves the others alone; a
  region gives its output array the value the region's own module states and leaves every other buffer alone. Read
  backwards from the first result: it is the pooled sums over the graphs' sizes; the pooled sums are region 2's output,
  the pool of the third layer of the second layer's output; that is region 1's output, the layer of the first layer's
  output; that is region 0's output, the layer of the features. Each layer's aggregate is the shared edge sum of the
  layer before, each bias row and the column of graph words a reshaped argument.
-/
import proofs.«402830_j32744830665311_3_alg».proof.Proof.Gen.KernelIdeal.Frame
import proofs.«402830_j32744830665311_3_alg».proof.Proof.Shared
import proofs.«402830_j32744830665311_3_alg».proof.Proof.Reg0
import proofs.«402830_j32744830665311_3_alg».proof.Proof.Reg1
import proofs.«402830_j32744830665311_3_alg».proof.Proof.Reg2
import proofs.«402830_j32744830665311_3_alg».proof.Proof.LibColumn
import Idealize.ShloMosaic.Lib.StableHlo.Run
import Idealize.ShloMosaic.Lib.ValueLayout

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Shared

/-! ## The four stretches of host operations, from any contents `W` -/

section Stretches

variable (W : Valuation τ sig (Elt Ideal))

/-! ### Before region 0: the edge rows, the second result, the first aggregate, the first bias row -/

theorem s0_v1 : after (hostOps0 (F := Ideal)) W (Proc.devRef .tc main_v1) = srcOf (W (Proc.devRef .tc main_arg1)) := by
  after_results; rfl
theorem s0_v3 : after (hostOps0 (F := Ideal)) W (Proc.devRef .tc main_v3) = dstOf (W (Proc.devRef .tc main_arg1)) := by
  after_results; rfl
theorem s0_v10 : after (hostOps0 (F := Ideal)) W (Proc.devRef .tc main_v10) = handcrafted (W (Proc.devRef .tc main_arg0)) := by
  after_results; rfl
theorem s0_v20 : after (hostOps0 (F := Ideal)) W (Proc.devRef .tc main_v20)
    = aggr128 (srcOf (W (Proc.devRef .tc main_arg1))) (dstOf (W (Proc.devRef .tc main_arg1))) (W (Proc.devRef .tc main_arg0)) := by
  after_results_simp <;> rfl
theorem s0_v21 : after (hostOps0 (F := Ideal)) W (Proc.devRef .tc main_v21)
    = shapeCast S1x256 (W (Proc.devRef .tc main_arg5)) shapeCasts_S256_S1x256 := by
  after_results; rfl
theorem s0_arg0 : after (hostOps0 (F := Ideal)) W (Proc.devRef .tc main_arg0) = W (Proc.devRef .tc main_arg0) := by after_results
theorem s0_arg2 : after (hostOps0 (F := Ideal)) W (Proc.devRef .tc main_arg2) = W (Proc.devRef .tc main_arg2) := by after_results
theorem s0_arg3 : after (hostOps0 (F := Ideal)) W (Proc.devRef .tc main_arg3) = W (Proc.devRef .tc main_arg3) := by after_results
theorem s0_arg4 : after (hostOps0 (F := Ideal)) W (Proc.devRef .tc main_arg4) = W (Proc.devRef .tc main_arg4) := by after_results
theorem s0_arg6 : after (hostOps0 (F := Ideal)) W (Proc.devRef .tc main_arg6) = W (Proc.devRef .tc main_arg6) := by after_results
theorem s0_arg7 : after (hostOps0 (F := Ideal)) W (Proc.devRef .tc main_arg7) = W (Proc.devRef .tc main_arg7) := by after_results
theorem s0_arg8 : after (hostOps0 (F := Ideal)) W (Proc.devRef .tc main_arg8) = W (Proc.devRef .tc main_arg8) := by after_results

/-! ### Between regions 0 and 1: the second aggregate, the second bias row -/

theorem s1_v32 : after (hostOps1 (F := Ideal)) W (Proc.devRef .tc main_v32)
    = aggr256 (W (Proc.devRef .tc main_v1)) (W (Proc.devRef .tc main_v3)) (W (Proc.devRef .tc main_v22)) := by
  after_results_simp <;> rfl
theorem s1_v33 : after (hostOps1 (F := Ideal)) W (Proc.devRef .tc main_v33)
    = shapeCast S1x256 (W (Proc.devRef .tc main_arg8)) shapeCasts_S256_S1x256 := by
  after_results; rfl
theorem s1_v1 : after (hostOps1 (F := Ideal)) W (Proc.devRef .tc main_v1) = W (Proc.devRef .tc main_v1) := by after_results
theorem s1_v3 : after (hostOps1 (F := Ideal)) W (Proc.devRef .tc main_v3) = W (Proc.devRef .tc main_v3) := by after_results
theorem s1_v10 : after (hostOps1 (F := Ideal)) W (Proc.devRef .tc main_v10) = W (Proc.devRef .tc main_v10) := by after_results
theorem s1_v22 : after (hostOps1 (F := Ideal)) W (Proc.devRef .tc main_v22) = W (Proc.devRef .tc main_v22) := by after_results
theorem s1_arg2 : after (hostOps1 (F := Ideal)) W (Proc.devRef .tc main_arg2) = W (Proc.devRef .tc main_arg2) := by after_results
theorem s1_arg6 : after (hostOps1 (F := Ideal)) W (Proc.devRef .tc main_arg6) = W (Proc.devRef .tc main_arg6) := by after_results
theorem s1_arg7 : after (hostOps1 (F := Ideal)) W (Proc.devRef .tc main_arg7) = W (Proc.devRef .tc main_arg7) := by after_results
theorem s1_arg8 : after (hostOps1 (F := Ideal)) W (Proc.devRef .tc main_arg8) = W (Proc.devRef .tc main_arg8) := by after_results

/-! ### Between regions 1 and 2: the third aggregate, the bias row, the column of graph words -/

theorem s2_v44 : after (hostOps2 (F := Ideal)) W (Proc.devRef .tc main_v44)
    = aggr256 (W (Proc.devRef .tc main_v1)) (W (Proc.devRef .tc main_v3)) (W (Proc.devRef .tc main_v34)) := by
  after_results_simp <;> rfl
theorem s2_v45 : after (hostOps2 (F := Ideal)) W (Proc.devRef .tc main_v45)
    = shapeCast S1x256 (W (Proc.devRef .tc main_arg8)) shapeCasts_S256_S1x256 := by
  after_results; rfl
theorem s2_v46 : after (hostOps2 (F := Ideal)) W (Proc.devRef .tc main_v46)
    = shapeCast S50000x1 (W (Proc.devRef .tc main_arg2)) shapeCasts_S50000_S50000x1 := by
  after_results; rfl
theorem s2_v10 : after (hostOps2 (F := Ideal)) W (Proc.devRef .tc main_v10) = W (Proc.devRef .tc main_v10) := by after_results
theorem s2_v34 : after (hostOps2 (F := Ideal)) W (Proc.devRef .tc main_v34) = W (Proc.devRef .tc main_v34) := by after_results
theorem s2_arg2 : after (hostOps2 (F := Ideal)) W (Proc.devRef .tc main_arg2) = W (Proc.devRef .tc main_arg2) := by after_results
theorem s2_arg6 : after (hostOps2 (F := Ideal)) W (Proc.devRef .tc main_arg6) = W (Proc.devRef .tc main_arg6) := by after_results
theorem s2_arg7 : after (hostOps2 (F := Ideal)) W (Proc.devRef .tc main_arg7) = W (Proc.devRef .tc main_arg7) := by after_results

/-! ### After region 2: the pooled sums over the graphs' sizes -/

theorem s3_v56 : after (hostOps3 (F := Ideal)) W (Proc.devRef .tc main_v56)
    = Host.divf (W (Proc.devRef .tc main_v47)) (denom (W (Proc.devRef .tc main_arg2))) := by
  after_results; rfl
theorem s3_v10 : after (hostOps3 (F := Ideal)) W (Proc.devRef .tc main_v10) = W (Proc.devRef .tc main_v10) := by after_results

end Stretches

/-! ## The buffers, boundary by boundary -/

variable (m : (ℓ : Loc nD τ sig) → Buf (Elt Ideal) ℓ) (ρ : Dev nD → PrngReg) (c : Dev nD)

/-! ### At region 0's entry -/

theorem W1_v1 : W1 m ρ c (Proc.devRef .tc main_v1) = srcOf (m ((c : Thread nD τ).loc main_arg1)) := s0_v1 (W0 m ρ c)
theorem W1_v3 : W1 m ρ c (Proc.devRef .tc main_v3) = dstOf (m ((c : Thread nD τ).loc main_arg1)) := s0_v3 (W0 m ρ c)
theorem W1_v10 : W1 m ρ c (Proc.devRef .tc main_v10) = handcrafted (m ((c : Thread nD τ).loc main_arg0)) := s0_v10 (W0 m ρ c)
theorem W1_v20 : W1 m ρ c (Proc.devRef .tc main_v20) = aggr128 (srcOf (m ((c : Thread nD τ).loc main_arg1))) (dstOf (m ((c : Thread nD τ).loc main_arg1))) (m ((c : Thread nD τ).loc main_arg0)) :=
  s0_v20 (W0 m ρ c)
theorem W1_v21 : W1 m ρ c (Proc.devRef .tc main_v21) = shapeCast S1x256 (m ((c : Thread nD τ).loc main_arg5)) shapeCasts_S256_S1x256 := s0_v21 (W0 m ρ c)
theorem W1_arg0 : W1 m ρ c (Proc.devRef .tc main_arg0) = (m ((c : Thread nD τ).loc main_arg0)) := s0_arg0 (W0 m ρ c)
theorem W1_arg2 : W1 m ρ c (Proc.devRef .tc main_arg2) = (m ((c : Thread nD τ).loc main_arg2)) := s0_arg2 (W0 m ρ c)
theorem W1_arg3 : W1 m ρ c (Proc.devRef .tc main_arg3) = (m ((c : Thread nD τ).loc main_arg3)) := s0_arg3 (W0 m ρ c)
theorem W1_arg4 : W1 m ρ c (Proc.devRef .tc main_arg4) = (m ((c : Thread nD τ).loc main_arg4)) := s0_arg4 (W0 m ρ c)
theorem W1_arg6 : W1 m ρ c (Proc.devRef .tc main_arg6) = (m ((c : Thread nD τ).loc main_arg6)) := s0_arg6 (W0 m ρ c)
theorem W1_arg7 : W1 m ρ c (Proc.devRef .tc main_arg7) = (m ((c : Thread nD τ).loc main_arg7)) := s0_arg7 (W0 m ρ c)
theorem W1_arg8 : W1 m ρ c (Proc.devRef .tc main_arg8) = (m ((c : Thread nD τ).loc main_arg8)) := s0_arg8 (W0 m ρ c)

/-! ### At region 0's exit: the first layer's output -/

/-- A `[256]` bias cast to a `[1, 256]` row reads the bias at the column. -/
theorem biasRow (b : FVec Ideal S256 .f32) (q : Fin 256) :
    shapeCast S1x256 b shapeCasts_S256_S1x256 (ix2 (0 : Fin 1) q) = b (ix1 q) :=
  shapeCast_a_1a_apply b shapeCasts_S256_S1x256 0 q

theorem W2_v22 : W2 m ρ c (Proc.devRef .tc main_v22)
    = hidden1 (m ((c : Thread nD τ).loc main_arg0)) (m ((c : Thread nD τ).loc main_arg1)) (m ((c : Thread nD τ).loc main_arg3)) (m ((c : Thread nD τ).loc main_arg4)) (m ((c : Thread nD τ).loc main_arg5)) := by
  refine ((W2_arr m ρ c 5).trans (Cert.KernelIdeal.RegionValue.region0_value (V1 m ρ) c)).trans ?_
  show Cert.Spec.layer (W1 m ρ c (Proc.devRef .tc main_v20)) (W1 m ρ c (Proc.devRef .tc main_arg0)) (W1 m ρ c (Proc.devRef .tc main_arg3))
    (W1 m ρ c (Proc.devRef .tc main_arg4)) (fun q => W1 m ρ c (Proc.devRef .tc main_v21) (ix2 (0 : Fin 1) q)) = _
  rw [W1_v20, W1_arg0, W1_arg3, W1_arg4, W1_v21]
  unfold hidden1
  exact congrArg (Cert.Spec.layer _ _ _ _) (funext fun q => biasRow _ q)

theorem W2_v1 : W2 m ρ c (Proc.devRef .tc main_v1) = srcOf (m ((c : Thread nD τ).loc main_arg1)) := (W2_of_ne m ρ c main_v1 (by decide)).trans (W1_v1 m ρ c)
theorem W2_v3 : W2 m ρ c (Proc.devRef .tc main_v3) = dstOf (m ((c : Thread nD τ).loc main_arg1)) := (W2_of_ne m ρ c main_v3 (by decide)).trans (W1_v3 m ρ c)
theorem W2_v10 : W2 m ρ c (Proc.devRef .tc main_v10) = handcrafted (m ((c : Thread nD τ).loc main_arg0)) := (W2_of_ne m ρ c main_v10 (by decide)).trans (W1_v10 m ρ c)
theorem W2_arg2 : W2 m ρ c (Proc.devRef .tc main_arg2) = (m ((c : Thread nD τ).loc main_arg2)) := (W2_of_ne m ρ c main_arg2 (by decide)).trans (W1_arg2 m ρ c)
theorem W2_arg6 : W2 m ρ c (Proc.devRef .tc main_arg6) = (m ((c : Thread nD τ).loc main_arg6)) := (W2_of_ne m ρ c main_arg6 (by decide)).trans (W1_arg6 m ρ c)
theorem W2_arg7 : W2 m ρ c (Proc.devRef .tc main_arg7) = (m ((c : Thread nD τ).loc main_arg7)) := (W2_of_ne m ρ c main_arg7 (by decide)).trans (W1_arg7 m ρ c)
theorem W2_arg8 : W2 m ρ c (Proc.devRef .tc main_arg8) = (m ((c : Thread nD τ).loc main_arg8)) := (W2_of_ne m ρ c main_arg8 (by decide)).trans (W1_arg8 m ρ c)

/-! ### At region 1's entry -/

theorem W3_v1 : W3 m ρ c (Proc.devRef .tc main_v1) = srcOf (m ((c : Thread nD τ).loc main_arg1)) := (s1_v1 (W2 m ρ c)).trans (W2_v1 m ρ c)
theorem W3_v3 : W3 m ρ c (Proc.devRef .tc main_v3) = dstOf (m ((c : Thread nD τ).loc main_arg1)) := (s1_v3 (W2 m ρ c)).trans (W2_v3 m ρ c)
theorem W3_v10 : W3 m ρ c (Proc.devRef .tc main_v10) = handcrafted (m ((c : Thread nD τ).loc main_arg0)) := (s1_v10 (W2 m ρ c)).trans (W2_v10 m ρ c)
theorem W3_v22 : W3 m ρ c (Proc.devRef .tc main_v22) = (hidden1 (m ((c : Thread nD τ).loc main_arg0)) (m ((c : Thread nD τ).loc main_arg1)) (m ((c : Thread nD τ).loc main_arg3)) (m ((c : Thread nD τ).loc main_arg4)) (m ((c : Thread nD τ).loc main_arg5))) := (s1_v22 (W2 m ρ c)).trans (W2_v22 m ρ c)
theorem W3_arg2 : W3 m ρ c (Proc.devRef .tc main_arg2) = (m ((c : Thread nD τ).loc main_arg2)) := (s1_arg2 (W2 m ρ c)).trans (W2_arg2 m ρ c)
theorem W3_arg6 : W3 m ρ c (Proc.devRef .tc main_arg6) = (m ((c : Thread nD τ).loc main_arg6)) := (s1_arg6 (W2 m ρ c)).trans (W2_arg6 m ρ c)
theorem W3_arg7 : W3 m ρ c (Proc.devRef .tc main_arg7) = (m ((c : Thread nD τ).loc main_arg7)) := (s1_arg7 (W2 m ρ c)).trans (W2_arg7 m ρ c)
theorem W3_arg8 : W3 m ρ c (Proc.devRef .tc main_arg8) = (m ((c : Thread nD τ).loc main_arg8)) := (s1_arg8 (W2 m ρ c)).trans (W2_arg8 m ρ c)
theorem W3_v32 : W3 m ρ c (Proc.devRef .tc main_v32) = aggr256 (srcOf (m ((c : Thread nD τ).loc main_arg1))) (dstOf (m ((c : Thread nD τ).loc main_arg1))) (hidden1 (m ((c : Thread nD τ).loc main_arg0)) (m ((c : Thread nD τ).loc main_arg1)) (m ((c : Thread nD τ).loc main_arg3)) (m ((c : Thread nD τ).loc main_arg4)) (m ((c : Thread nD τ).loc main_arg5))) := by
  refine (s1_v32 (W2 m ρ c)).trans ?_
  rw [W2_v1, W2_v3, W2_v22]
theorem W3_v33 : W3 m ρ c (Proc.devRef .tc main_v33) = shapeCast S1x256 (m ((c : Thread nD τ).loc main_arg8)) shapeCasts_S256_S1x256 := by
  refine (s1_v33 (W2 m ρ c)).trans ?_
  rw [W2_arg8]

/-! ### At region 1's exit: the second layer's output -/

theorem hiddenNext_def (h : FVec Ideal S50000x256 .f32) (e : IVec S2x800000 32) (w2r w2o : FVec Ideal S256x256 .f32)
    (b2 : FVec Ideal S256 .f32) :
    hiddenNext h e w2r w2o b2 = Cert.Spec.layer (aggr256 (srcOf e) (dstOf e) h) h w2r w2o (fun q => b2 (ix1 q)) := rfl

theorem W4_v34 : W4 m ρ c (Proc.devRef .tc main_v34) = (hiddenNext (hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) := by
  refine ((W4_arr m ρ c 5).trans (Cert.KernelIdeal.RegionValue.region1_value (V3 m ρ) c)).trans ?_
  show Cert.Spec.layer (W3 m ρ c (Proc.devRef .tc main_v32)) (W3 m ρ c (Proc.devRef .tc main_v22)) (W3 m ρ c (Proc.devRef .tc main_arg6))
    (W3 m ρ c (Proc.devRef .tc main_arg7)) (fun q => W3 m ρ c (Proc.devRef .tc main_v33) (ix2 (0 : Fin 1) q)) = _
  rw [W3_v32, W3_v22, W3_arg6, W3_arg7, W3_v33]
  exact (congrArg (Cert.Spec.layer _ _ _ _) (funext fun q => biasRow _ q)).trans (hiddenNext_def _ _ _ _ _).symm

theorem W4_v1 : W4 m ρ c (Proc.devRef .tc main_v1) = srcOf (m ((c : Thread nD τ).loc main_arg1)) := (W4_of_ne m ρ c main_v1 (by decide)).trans (W3_v1 m ρ c)
theorem W4_v3 : W4 m ρ c (Proc.devRef .tc main_v3) = dstOf (m ((c : Thread nD τ).loc main_arg1)) := (W4_of_ne m ρ c main_v3 (by decide)).trans (W3_v3 m ρ c)
theorem W4_v10 : W4 m ρ c (Proc.devRef .tc main_v10) = handcrafted (m ((c : Thread nD τ).loc main_arg0)) := (W4_of_ne m ρ c main_v10 (by decide)).trans (W3_v10 m ρ c)
theorem W4_arg2 : W4 m ρ c (Proc.devRef .tc main_arg2) = (m ((c : Thread nD τ).loc main_arg2)) := (W4_of_ne m ρ c main_arg2 (by decide)).trans (W3_arg2 m ρ c)
theorem W4_arg8 : W4 m ρ c (Proc.devRef .tc main_arg8) = (m ((c : Thread nD τ).loc main_arg8)) := (W4_of_ne m ρ c main_arg8 (by decide)).trans (W3_arg8 m ρ c)
/-- The weights are input arrays of region 1: it leaves them as it found them. -/
theorem W4_arg6 : W4 m ρ c (Proc.devRef .tc main_arg6) = (m ((c : Thread nD τ).loc main_arg6)) :=
  ((W4_arr m ρ c 2).trans (((dat1 (V3 m ρ) c).arrAt_in 2 rfl _).trans (A_eq1 (V3 m ρ) c 2))).trans (W3_arg6 m ρ c)
theorem W4_arg7 : W4 m ρ c (Proc.devRef .tc main_arg7) = (m ((c : Thread nD τ).loc main_arg7)) :=
  ((W4_arr m ρ c 3).trans (((dat1 (V3 m ρ) c).arrAt_in 3 rfl _).trans (A_eq1 (V3 m ρ) c 3))).trans (W3_arg7 m ρ c)

/-! ### At region 2's entry -/

theorem W5_v10 : W5 m ρ c (Proc.devRef .tc main_v10) = handcrafted (m ((c : Thread nD τ).loc main_arg0)) := (s2_v10 (W4 m ρ c)).trans (W4_v10 m ρ c)
theorem W5_v34 : W5 m ρ c (Proc.devRef .tc main_v34) = (hiddenNext (hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) := (s2_v34 (W4 m ρ c)).trans (W4_v34 m ρ c)
theorem W5_arg2 : W5 m ρ c (Proc.devRef .tc main_arg2) = (m ((c : Thread nD τ).loc main_arg2)) := (s2_arg2 (W4 m ρ c)).trans (W4_arg2 m ρ c)
theorem W5_arg6 : W5 m ρ c (Proc.devRef .tc main_arg6) = (m ((c : Thread nD τ).loc main_arg6)) := (s2_arg6 (W4 m ρ c)).trans (W4_arg6 m ρ c)
theorem W5_arg7 : W5 m ρ c (Proc.devRef .tc main_arg7) = (m ((c : Thread nD τ).loc main_arg7)) := (s2_arg7 (W4 m ρ c)).trans (W4_arg7 m ρ c)
theorem W5_v44 : W5 m ρ c (Proc.devRef .tc main_v44) = aggr256 (srcOf (m ((c : Thread nD τ).loc main_arg1))) (dstOf (m ((c : Thread nD τ).loc main_arg1))) (hiddenNext (hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) := by
  refine (s2_v44 (W4 m ρ c)).trans ?_
  rw [W4_v1, W4_v3, W4_v34]
theorem W5_v45 : W5 m ρ c (Proc.devRef .tc main_v45) = shapeCast S1x256 (m ((c : Thread nD τ).loc main_arg8)) shapeCasts_S256_S1x256 := by
  refine (s2_v45 (W4 m ρ c)).trans ?_
  rw [W4_arg8]
theorem W5_v46 : W5 m ρ c (Proc.devRef .tc main_v46) = shapeCast S50000x1 (m ((c : Thread nD τ).loc main_arg2)) shapeCasts_S50000_S50000x1 := by
  refine (s2_v46 (W4 m ρ c)).trans ?_
  rw [W4_arg2]

/-! ### At region 2's exit: the pooled sums -/

/-- The `[50000]` graph words cast to a `[50000, 1]` column read the word at the row. -/
theorem wordCol (bt : IVec S50000 32) (n : Fin 50000) :
    shapeCast S50000x1 bt shapeCasts_S50000_S50000x1 (ix2 n (0 : Fin 1)) = bt (ix1 n) :=
  Cert.Lib.shapeCast_a_a1_apply bt shapeCasts_S50000_S50000x1 n 0

theorem W6_v47 : W6 m ρ c (Proc.devRef .tc main_v47) = Cert.Spec.pool (fun n => (m ((c : Thread nD τ).loc main_arg2)) (ix1 n)) (hiddenNext (hiddenNext (hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) (m ((c : Thread nD τ).loc main_arg6)) (m ((c : Thread nD τ).loc main_arg7)) (m ((c : Thread nD τ).loc main_arg8))) := by
  refine ((W6_arr m ρ c 6).trans (Cert.KernelIdeal.RegionValue.region2_value (V5 m ρ) c)).trans ?_
  show Cert.Spec.pool (fun n => W5 m ρ c (Proc.devRef .tc main_v46) (ix2 n (0 : Fin 1)))
    (Cert.Spec.layer (W5 m ρ c (Proc.devRef .tc main_v44)) (W5 m ρ c (Proc.devRef .tc main_v34)) (W5 m ρ c (Proc.devRef .tc main_arg6))
      (W5 m ρ c (Proc.devRef .tc main_arg7)) (fun q => W5 m ρ c (Proc.devRef .tc main_v45) (ix2 (0 : Fin 1) q))) = _
  rw [W5_v46, W5_v44, W5_v34, W5_arg6, W5_arg7, W5_v45]
  exact congrArg₂ Cert.Spec.pool (funext fun n => wordCol _ n)
    ((congrArg (Cert.Spec.layer _ _ _ _) (funext fun q => biasRow _ q)).trans (hiddenNext_def _ _ _ _ _).symm)

theorem W6_v10 : W6 m ρ c (Proc.devRef .tc main_v10) = handcrafted (m ((c : Thread nD τ).loc main_arg0)) := (W6_of_ne m ρ c main_v10 (by decide)).trans (W5_v10 m ρ c)
theorem W6_arg2 : W6 m ρ c (Proc.devRef .tc main_arg2) = (m ((c : Thread nD τ).loc main_arg2)) := (W6_of_ne m ρ c main_arg2 (by decide)).trans (W5_arg2 m ρ c)

/-! ## The two results at the return -/

/-- The first result buffer at the return: the pooled mean of the arguments. -/
theorem W7_v56 :
    W7 (F := Ideal) m ρ c (Proc.devRef .tc main_v56)
      = Cert.Shared.pooledMean (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  refine (s3_v56 (W6 m ρ c)).trans ?_
  rw [W6_v47, W6_arg2]
  rfl

/-- The second result buffer at the return: the handcrafted features of the first argument. -/
theorem W7_v10 :
    W7 (F := Ideal) m ρ c (Proc.devRef .tc main_v10) = Cert.Shared.handcrafted (m ((c : Thread nD τ).loc main_arg0)) :=
  (s3_v10 (W6 m ρ c)).trans (W6_v10 m ρ c)

end Cert.KernelIdeal.KernelValue

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.RefValue.lean ====
/-
  The reference program's two results as the same functions of its nine arguments.

  The reference computes each layer on the host: two matrix products, two additions (the bias laid along the rows),
  and a maximum with zero; at an entry that is the layer's formula, the products plain sums over the contracted axis.
  Its aggregates are the shared edge sum. Its pool is a scatter that adds node `n`'s row into the row its graph word
  names, read signed, and drops it when the word names none: at graph `g` that is the sum over the nodes whose word
  is `g`'s. Its divisor and its second result are the shared functions.
-/
import proofs.«402830_j32744830665311_3_alg».proof.Proof.Gen.ReferenceIdeal.Run
import proofs.«402830_j32744830665311_3_alg».proof.Proof.Gen.ReferenceIdeal.Read
import proofs.«402830_j32744830665311_3_alg».proof.Proof.Shared
import proofs.«402830_j32744830665311_3_alg».proof.Proof.LibScatterGather2
import Idealize.ShloMosaic.Lib.ValueLayout

noncomputable section

namespace Cert.RefValue

open Idealize.ShloMosaic Idealize.ShloMosaic.TcCoe Idealize.ShloMosaic.ValueIdx Idealize.SL.Sem
open Cert.ReferenceIdeal Cert.ReferenceIdeal.Gen

open Cert.ReferenceIdeal.Read

/-! ## Index functions by coordinates

  Each matrix product reads its operands, at entry `i` and position `k` of the contracted axis, at two indices computed
  from `i` and `k`, and each broadcast reads its operand at an index computed from `i`. At `i = (p, q)` these are
  row `p` at `k`, `k` at column `q`, and channel `q`. -/

theorem lidx21 (p : Fin 50000) (q : Fin 256) (k : Fin 128) : lidx_main_v21 (ix2 p q) k = ix2 p k :=
  funext fun a => Fin.ext (by match a with | ⟨0, _⟩ => rfl | ⟨1, _⟩ => rfl)
theorem ridx21 (p : Fin 50000) (q : Fin 256) (k : Fin 128) : ridx_main_v21 (ix2 p q) k = ix2 k q :=
  funext fun a => Fin.ext (by match a with | ⟨0, _⟩ => rfl | ⟨1, _⟩ => rfl)
theorem lidx22 (p : Fin 50000) (q : Fin 256) (k : Fin 128) : lidx_main_v22 (ix2 p q) k = ix2 p k :=
  funext fun a => Fin.ext (by match a with | ⟨0, _⟩ => rfl | ⟨1, _⟩ => rfl)
theorem ridx22 (p : Fin 50000) (q : Fin 256) (k : Fin 128) : ridx_main_v22 (ix2 p q) k = ix2 k q :=
  funext fun a => Fin.ext (by match a with | ⟨0, _⟩ => rfl | ⟨1, _⟩ => rfl)
theorem idx2425 (p : Fin 50000) (q : Fin 256) : idx_main_v24 (idx_main_v25 (ix2 p q)) = ix1 q :=
  funext fun a => Fin.ext (by match a with | ⟨0, _⟩ => rfl)

theorem lidx38 (p : Fin 50000) (q : Fin 256) (k : Fin 256) : lidx_main_v38 (ix2 p q) k = ix2 p k :=
  funext fun a => Fin.ext (by match a with | ⟨0, _⟩ => rfl | ⟨1, _⟩ => rfl)
theorem ridx38 (p : Fin 50000) (q : Fin 256) (k : Fin 256) : ridx_main_v38 (ix2 p q) k = ix2 k q :=
  funext fun a => Fin.ext (by match a with | ⟨0, _⟩ => rfl | ⟨1, _⟩ => rfl)
theorem lidx39 (p : Fin 50000) (q : Fin 256) (k : Fin 256) : lidx_main_v39 (ix2 p q) k = ix2 p k :=
  funext fun a => Fin.ext (by match a with | ⟨0, _⟩ => rfl | ⟨1, _⟩ => rfl)
theorem ridx39 (p : Fin 50000) (q : Fin 256) (k : Fin 256) : ridx_main_v39 (ix2 p q) k = ix2 k q :=
  funext fun a => Fin.ext (by match a with | ⟨0, _⟩ => rfl | ⟨1, _⟩ => rfl)
theorem idx4142 (p : Fin 50000) (q : Fin 256) : idx_main_v41 (idx_main_v42 (ix2 p q)) = ix1 q :=
  funext fun a => Fin.ext (by match a with | ⟨0, _⟩ => rfl)

theorem lidx55 (p : Fin 50000) (q : Fin 256) (k : Fin 256) : lidx_main_v55 (ix2 p q) k = ix2 p k :=
  funext fun a => Fin.ext (by match a with | ⟨0, _⟩ => rfl | ⟨1, _⟩ => rfl)
theorem ridx55 (p : Fin 50000) (q : Fin 256) (k : Fin 256) : ridx_main_v55 (ix2 p q) k = ix2 k q :=
  funext fun a => Fin.ext (by match a with | ⟨0, _⟩ => rfl | ⟨1, _⟩ => rfl)
theorem lidx56 (p : Fin 50000) (q : Fin 256) (k : Fin 256) : lidx_main_v56 (ix2 p q) k = ix2 p k :=
  funext fun a => Fin.ext (by match a with | ⟨0, _⟩ => rfl | ⟨1, _⟩ => rfl)
theorem ridx56 (p : Fin 50000) (q : Fin 256) (k : Fin 256) : ridx_main_v56 (ix2 p q) k = ix2 k q :=
  funext fun a => Fin.ext (by match a with | ⟨0, _⟩ => rfl | ⟨1, _⟩ => rfl)
theorem idx5859 (p : Fin 50000) (q : Fin 256) : idx_main_v58 (idx_main_v59 (ix2 p q)) = ix1 q :=
  funext fun a => Fin.ext (by match a with | ⟨0, _⟩ => rfl)

theorem idx67 (e : Fin 50000) : idx_main_v67 (ix2 e (0 : Fin 1)) = ix1 e :=
  funext fun a => Fin.ext (by match a with | ⟨0, _⟩ => rfl)

/-! ## The aggregates and the divisor: the same operations as the shared functions -/

theorem v20_eq (x0 : FVec Ideal S50000x128 .f32) (x1 : IVec S2x800000 32) :
    val_main_v20 (F := Ideal) x0 x1 = Cert.Shared.aggr128 (Cert.Shared.srcOf x1) (Cert.Shared.dstOf x1) x0 := rfl

theorem v37_eq (x0 : FVec Ideal S50000x128 .f32) (x1 : IVec S2x800000 32) (x3 x4 : FVec Ideal S128x256 .f32)
    (x5 : FVec Ideal S256 .f32) :
    val_main_v37 (F := Ideal) x0 x1 x3 x4 x5
      = Cert.Shared.aggr256 (Cert.Shared.srcOf x1) (Cert.Shared.dstOf x1) (val_main_v27 (F := Ideal) x0 x1 x3 x4 x5) := rfl

theorem v54_eq (x0 : FVec Ideal S50000x128 .f32) (x1 : IVec S2x800000 32) (x3 x4 : FVec Ideal S128x256 .f32)
    (x5 : FVec Ideal S256 .f32) (x6 x7 : FVec Ideal S256x256 .f32) (x8 : FVec Ideal S256 .f32) :
    val_main_v54 (F := Ideal) x0 x1 x3 x4 x5 x6 x7 x8
      = Cert.Shared.aggr256 (Cert.Shared.srcOf x1) (Cert.Shared.dstOf x1)
          (val_main_v44 (F := Ideal) x0 x1 x3 x4 x5 x6 x7 x8) := rfl

theorem v72_eq (x2 : IVec S50000 32) : val_main_v72 (F := Ideal) x2 = Cert.Shared.denom x2 := rfl

/-! ## The three layers -/

/-- The first layer: at `(p, q)` the two products are sums over the 128 channels, the bias is read at `q` through its
    two broadcasts, and the maximum is with the zero constant. -/
theorem v27_eq (x0 : FVec Ideal S50000x128 .f32) (x1 : IVec S2x800000 32) (x3 x4 : FVec Ideal S128x256 .f32)
    (x5 : FVec Ideal S256 .f32) :
    val_main_v27 (F := Ideal) x0 x1 x3 x4 x5 = Cert.Shared.hidden1 x0 x1 x3 x4 x5 := by
  funext i
  obtain ⟨p, q, rfl⟩ : ∃ (p : Fin 50000) (q : Fin 256), i = ix2 p q := ⟨i 0, i 1, eq_ix2 i⟩
  rw [val_main_v27_apply, val_main_call0_v0_apply, val_main_call0_cst_apply, val_main_v26_apply, val_main_v23_apply,
    val_main_v21_apply, val_main_v22_apply, val_main_v25_apply, val_main_v24_apply, v20_eq]
  unfold Cert.Shared.hidden1
  rw [Cert.Spec.layer_apply]
  unfold Cert.Spec.layerAt
  simp only [lidx21, ridx21, lidx22, ridx22, idx2425, Ideal.ofBits_def, Ideal.ofBits_zero_f32, Ideal.maximumf_def,
    Ideal.addf_def]

/-- The second layer, from the first layer's output. -/
theorem v44_eq (x0 : FVec Ideal S50000x128 .f32) (x1 : IVec S2x800000 32) (x3 x4 : FVec Ideal S128x256 .f32)
    (x5 : FVec Ideal S256 .f32) (x6 x7 : FVec Ideal S256x256 .f32) (x8 : FVec Ideal S256 .f32) :
    val_main_v44 (F := Ideal) x0 x1 x3 x4 x5 x6 x7 x8
      = Cert.Shared.hiddenNext (val_main_v27 (F := Ideal) x0 x1 x3 x4 x5) x1 x6 x7 x8 := by
  funext i
  obtain ⟨p, q, rfl⟩ : ∃ (p : Fin 50000) (q : Fin 256), i = ix2 p q := ⟨i 0, i 1, eq_ix2 i⟩
  rw [val_main_v44_apply, val_main_call1_v0_apply, val_main_call1_cst_apply, val_main_v43_apply, val_main_v40_apply,
    val_main_v38_apply, val_main_v39_apply, val_main_v42_apply, val_main_v41_apply, v37_eq]
  unfold Cert.Shared.hiddenNext
  rw [Cert.Spec.layer_apply]
  unfold Cert.Spec.layerAt
  simp only [lidx38, ridx38, lidx39, ridx39, idx4142, Ideal.ofBits_def, Ideal.ofBits_zero_f32, Ideal.maximumf_def,
    Ideal.addf_def]

/-- The third layer, from the second layer's output, with the second layer's weights. -/
theorem v61_eq (x0 : FVec Ideal S50000x128 .f32) (x1 : IVec S2x800000 32) (x3 x4 : FVec Ideal S128x256 .f32)
    (x5 : FVec Ideal S256 .f32) (x6 x7 : FVec Ideal S256x256 .f32) (x8 : FVec Ideal S256 .f32) :
    val_main_v61 (F := Ideal) x0 x1 x3 x4 x5 x6 x7 x8
      = Cert.Shared.hiddenNext (val_main_v44 (F := Ideal) x0 x1 x3 x4 x5 x6 x7 x8) x1 x6 x7 x8 := by
  funext i
  obtain ⟨p, q, rfl⟩ : ∃ (p : Fin 50000) (q : Fin 256), i = ix2 p q := ⟨i 0, i 1, eq_ix2 i⟩
  rw [val_main_v61_apply, val_main_call2_v0_apply, val_main_call2_cst_apply, val_main_v60_apply, val_main_v57_apply,
    val_main_v55_apply, val_main_v56_apply, val_main_v59_apply, val_main_v58_apply, v54_eq]
  unfold Cert.Shared.hiddenNext
  rw [Cert.Spec.layer_apply]
  unfold Cert.Spec.layerAt
  simp only [lidx55, ridx55, lidx56, ridx56, idx5859, Ideal.ofBits_def, Ideal.ofBits_zero_f32, Ideal.maximumf_def,
    Ideal.addf_def]

/-! ## The pool -/

/-- The scatter of the rows `y` by the graph words into zeros: at `(g, d)` the zero plus column `d` of the rows whose
    word read signed is `g`, which is the pool. -/
theorem pool_eq (x2 : IVec S50000 32) (y : FVec Ideal S50000x256 .f32) :
    Host.scatterAdd (F := Ideal) scatter_S64x256_S50000x1_S50000x256_1_0_0_1 (val_main_v66 (F := Ideal))
        (val_main_v67 (F := Ideal) x2) y
      = Cert.Spec.pool (fun n => x2 (ix1 n)) y := by
  funext i
  obtain ⟨g, d, rfl⟩ : ∃ (g : Fin 64) (d : Fin 256), i = ix2 g d := ⟨i 0, i 1, eq_ix2 i⟩
  refine (Cert.LibScatterGather2.scatterAdd_apply scatter_S64x256_S50000x1_S50000x256_1_0_0_1 rfl rfl rfl rfl
    (val_main_v66 (F := Ideal)) (val_main_v67 (F := Ideal) x2) y g d).trans ?_
  rw [val_main_v66_apply, val_main_cst_11_apply, Ideal.ofBits_def, Ideal.ofBits_zero_f32, Cert.Spec.pool_apply,
    ← Cert.Spec.filter_sum_eq_poolAt]
  simp only [val_main_v67_apply, idx67]

theorem v68_eq (x0 : FVec Ideal S50000x128 .f32) (x1 : IVec S2x800000 32) (x2 : IVec S50000 32)
    (x3 x4 : FVec Ideal S128x256 .f32) (x5 : FVec Ideal S256 .f32) (x6 x7 : FVec Ideal S256x256 .f32)
    (x8 : FVec Ideal S256 .f32) :
    val_main_v68 (F := Ideal) x0 x1 x2 x3 x4 x5 x6 x7 x8
      = Cert.Spec.pool (fun n => x2 (ix1 n)) (val_main_v61 (F := Ideal) x0 x1 x3 x4 x5 x6 x7 x8) :=
  pool_eq x2 (val_main_v61 (F := Ideal) x0 x1 x3 x4 x5 x6 x7 x8)

/-! ## The first result -/

/-- The first result as a function of the nine arguments: three layers, pooled, over the divisor. -/
theorem v73_eq (x0 : FVec Ideal S50000x128 .f32) (x1 : IVec S2x800000 32) (x2 : IVec S50000 32)
    (x3 x4 : FVec Ideal S128x256 .f32) (x5 : FVec Ideal S256 .f32) (x6 x7 : FVec Ideal S256x256 .f32)
    (x8 : FVec Ideal S256 .f32) :
    val_main_v73 (F := Ideal) x0 x1 x2 x3 x4 x5 x6 x7 x8 = Cert.Shared.pooledMean x0 x1 x2 x3 x4 x5 x6 x7 x8 := by
  unfold val_main_v73 Cert.Shared.pooledMean
  rw [v68_eq, v61_eq, v44_eq, v27_eq, v72_eq]

variable (m : (ℓ : Loc nD τ sig) → Buf (Elt Ideal) ℓ)

/-- The reference's first result term is the pooled mean of its arguments. -/
theorem ref_v73 (c : Dev nD) :
    Cert.ReferenceIdeal.Value.res_main_v73 (F := Ideal) m c
      = Cert.Shared.pooledMean (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) :=
  (val_main_v73_eq (F := Ideal) m c).trans (v73_eq _ _ _ _ _ _ _ _ _)

end Cert.RefValue

end
-- ==== Proof.lean ====
/-
  The certificate of a three-layer graph network with a mean pool.

  Both programs aggregate over the edges, count the graphs' sizes and form the second result with the same host
  operations. They differ in how a layer and the pool are computed. The kernel computes each layer
  `max (agg · W_rel + h · W_root + b, 0)` in tiles of 2000 nodes, the third layer fused with the pool: each tile adds
  `onehotᵀ · y` into a 64 × 256 block zeroed at the first tile and written back after the last. The reference
  computes each layer with two host matrix products and pools by a scatter-add over the graph words.
  Over the extended reals the two agree for every input: a change of float format is the identity, a product into a
  zero accumulator is the plain sum, the tiles cover the rows, an indicator times a value is the value or zero
  (`0 · a = 0` for infinite `a` too), and a sum taken tile by tile is the sum. No step needs the inputs finite.
  The kernel program's frame is the generated one; its run with the result buffers named calls the same launch
  theorem with the same text. The reference's frame is its generated run with the results dropped. The ideal pass
  rewrote nothing, so `preserves` is `True`.
-/
import proofs.«402830_j32744830665311_3_alg».proof.Defs
import proofs.«402830_j32744830665311_3_alg».proof.Proof.Gen.Kernel
import proofs.«402830_j32744830665311_3_alg».proof.Proof.Gen.Kernel.Skeleton
import proofs.«402830_j32744830665311_3_alg».proof.Proof.Gen.Kernel.Launch
import proofs.«402830_j32744830665311_3_alg».proof.Proof.Gen.Kernel.Points
import proofs.«402830_j32744830665311_3_alg».proof.Proof.Gen.Kernel.Frame
import proofs.«402830_j32744830665311_3_alg».proof.Proof.Gen.KernelIdeal
import proofs.«402830_j32744830665311_3_alg».proof.Proof.Gen.KernelIdeal.Skeleton
import proofs.«402830_j32744830665311_3_alg».proof.Proof.Gen.KernelIdeal.Launch
import proofs.«402830_j32744830665311_3_alg».proof.Proof.Gen.KernelIdeal.Points
import proofs.«402830_j32744830665311_3_alg».proof.Proof.Gen.KernelIdeal.Frame
import proofs.«402830_j32744830665311_3_alg».proof.Proof.Gen.ReferenceIdeal
import proofs.«402830_j32744830665311_3_alg».proof.Proof.Gen.ReferenceIdeal.Run
import proofs.«402830_j32744830665311_3_alg».proof.Proof.Gen.Pre_finite_inputs
import proofs.«402830_j32744830665311_3_alg».proof.Proof.KernelRun
import proofs.«402830_j32744830665311_3_alg».proof.Proof.KernelValue
import proofs.«402830_j32744830665311_3_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the pooled mean and the handcrafted features of arguments that agree. -/
theorem algebraic : Cert.algebraic_KernelIdeal_ReferenceIdeal := by
  intro m ρ m' ρ' _ hagree
  refine ⟨fun c => Cert.Shared.pooledMean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Shared.handcrafted (m ((c.tc : Thread Cert.KernelIdeal.nD Cert.KernelIdeal.τ).loc Cert.KernelIdeal.main_arg0)), ?_, ?_⟩
  · refine (θ_run Cert.KernelIdeal.defs _ _).mono (fun r h c => ?_) (Cert.KernelIdeal.Gen.run_results (F := Ideal) m ρ)
    obtain ⟨h56, h10, hargs⟩ := h c
    exact ⟨h56.trans (Cert.KernelIdeal.KernelValue.W7_v56 m ρ c), h10.trans (Cert.KernelIdeal.KernelValue.W7_v10 m ρ c), hargs⟩
  · refine (θ_run Cert.ReferenceIdeal.defs _ _).mono (fun r h c => ?_) (Cert.ReferenceIdeal.Value.run (F := Ideal) m' ρ')
    obtain ⟨h73, h10, hargs⟩ := h c
    obtain ⟨a0, a1, a2, a3, a4, a5, a6, a7, a8⟩ := hagree c
    refine ⟨h73.trans ?_, h10.trans ?_, hargs⟩
    · rw [Cert.RefValue.ref_v73 m' c, a0, a1, a2, a3, a4, a5, a6, a7, a8]
    · rw [a0]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
